-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1x1 : Shape := ⟨2, ![1, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S512x128 : Shape := ⟨2, ![512, 128]⟩
abbrev S2000x512 : Shape := ⟨2, ![2000, 512]⟩
abbrev S512 : Shape := ⟨1, ![512]⟩
abbrev S512x1 : Shape := ⟨2, ![512, 1]⟩

abbrev nBuf : Space → Nat
  | .hbm => 104
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x128, .f32⟩
  | .hbm, ⟨44, _⟩ => ⟨S800000x128, .i1⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S1x128, .f32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S1, .i32⟩
  | .hbm, ⟨66, _⟩ => ⟨S_, .i32⟩
  | .hbm, ⟨67, _⟩ => ⟨S800000x1, .i32⟩
  | .hbm, ⟨68, _⟩ => ⟨S800000x1, .i1⟩
  | .hbm, ⟨69, _⟩ => ⟨S1x1, .i32⟩
  | .hbm, ⟨70, _⟩ => ⟨S800000x1, .i32⟩
  | .hbm, ⟨71, _⟩ => ⟨S800000x1, .i1⟩
  | .hbm, ⟨72, _⟩ => ⟨S800000x1, .i1⟩
  | .hbm, ⟨73, _⟩ => ⟨S_, .i1⟩
  | .hbm, ⟨74, _⟩ => ⟨S800000, .i1⟩
  | .hbm, ⟨75, _⟩ => ⟨S800000x128, .f32⟩
  | .hbm, ⟨76, _⟩ => ⟨S800000x128, .i1⟩
  | .hbm, ⟨77, _⟩ => ⟨S_, .f32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x1, .f32⟩
  | .hbm, ⟨85, _⟩ => ⟨S1x128, .f32⟩
  | .hbm, ⟨86, _⟩ => ⟨S50000x1, .i32⟩
  | .hbm, ⟨87, _⟩ => ⟨S512x128, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S512, .f32⟩
  | .hbm, ⟨92, _⟩ => ⟨S50000x1, .i32⟩
  | .hbm, ⟨93, _⟩ => ⟨S512, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S512x1, .f32⟩
  | .hbm, ⟨98, _⟩ => ⟨S512x128, .f32⟩
  | .hbm, ⟨99, _⟩ => ⟨S512x128, .f32⟩
  | .hbm, ⟨100, _⟩ => ⟨S512x1, .f32⟩
  | .hbm, ⟨101, _⟩ => ⟨S1x1, .f32⟩
  | .hbm, ⟨102, _⟩ => ⟨S512x1, .f32⟩
  | .hbm, ⟨103, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S2000x1, .i32⟩
  | .local _ .vmem, ⟨31, _⟩ => ⟨S2000x1, .i32⟩
  | .local _ .vmem, ⟨32, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v22 : Ref sig .tc := ⟨.hbm, 79, rfl⟩
abbrev main_cst_3 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_cst_4 : Ref sig .tc := ⟨.hbm, 88, rfl⟩
abbrev main_v30 : Ref sig .tc := ⟨.hbm, 89, rfl⟩
abbrev main_cst_5 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_6 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S512x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S5000x128_S5000x128 : S5000x128.ShapeCasts S5000x128
  inb_S512x128_S512x128_0_0 : ∀ a, (![0, 0] : Fin 2 → Nat) a + S512x128.size a ≤ S512x128.size a
  h_S512x128 : 0 < S512x128.numel
  iota_S2000x512_d1_w32 : S2000x512.Iotas .tc 32 [1]
  broadcasts_S2000x1_S2000x512 : S2000x1.Broadcasts S2000x512
  natLt_1_32 : 1 < 32
  shapeCasts_S512x128_S512x128 : S512x128.ShapeCasts S512x128
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x1_S512x1_0_1 : S1x1.BroadcastsInDim S512x1 (![0, 1] : Fin 2 → Fin S512x1.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x512_S2000x128_S512x128_0_0_1_1_n_n_wf : DotDims.WF S2000x512 S2000x128 S512x128 [0] [0] [1] [1] [] []
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S50000x1.size a
  hwx3_4 : ∀ i : grid3.Coords, EltTy.bits .i32 = 32 ∨ (Rect.block (s := S50000x1) S2000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S512x128.size a
  hwx3_5 : ∀ i : grid3.Coords, EltTy.bits .f32 = 32 ∨ (Rect.block (s := S512x128) S512x128.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v29) S512x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S_, .f32⟩
  | 89 => ⟨S800000, .f32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S800000, .f32⟩
  | 123 => ⟨S800000x1, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S_, .f32⟩
  | 18 => ⟨S50000, .f32⟩
  | 19 => ⟨S_, .f32⟩
  | 20 => ⟨S512, .f32⟩
  | 21 => ⟨S50000x1, .i32⟩
  | 22 => ⟨S512, .f32⟩
  | 23 => ⟨S_, .f32⟩
  | 24 => ⟨S512, .f32⟩
  | 25 => ⟨S512, .f32⟩
  | 26 => ⟨S512x1, .f32⟩
  | 27 => ⟨S512x128, .f32⟩
  | 28 => ⟨S512x128, .f32⟩
  | 29 => ⟨S512x1, .f32⟩
  | 30 => ⟨S1x1, .f32⟩
  | 31 => ⟨S512x1, .f32⟩
  | 32 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_c_18 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_19 : Ref sig .tc := ⟨.hbm, 113, rfl⟩
abbrev main_v81 : Ref sig .tc := ⟨.hbm, 114, rfl⟩
abbrev main_v82 : Ref sig .tc := ⟨.hbm, 115, rfl⟩
abbrev main_c_20 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call1_cst : Ref sig .tc := ⟨.hbm, 138, rfl⟩
abbrev main_call1_v0 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KStages.lean ====
/-
  The host stretches of the kernel's program as named whole-array terms, operation for operation as printed:
  the two rows of the edge array, `dinv` (the scatter-add of ones by destination, plus one, under rsqrt)
  as a vector and as a column, jnp.take's read of rows by source word (negative words wrapped, the gathered
  row kept where the wrapped word is a row number and a fill value elsewhere), the scatter-add of those rows
  by destination, the bias as a row, the graph words as a column, and the shared last stretch (the pooled sums
  divided by max(count, 1), times Wl, plus bl).
-/
import proofs.«407980_j16999480557858_3_alg».proof.KernelIdeal
import proofs.«407980_j16999480557858_3_alg».proof.Proof.Gen.KernelIdeal
import Idealize.ShloMosaic.PureOps.Ideal

noncomputable section

namespace Cert.KernelIdeal.KV

open Cert.KernelIdeal Cert.KernelIdeal.Gen Idealize.ShloMosaic Idealize.ShloMosaic.TcCoe

/-- Row 0 of the edge array: the source words. -/
def SRC (ei : IVec S2x800000 32) : IVec S800000 32 :=
  shapeCast _ (extractStridedSlice S1x800000 ![0, 0] ei slices_S2x800000_S1x800000_0_0) shapeCasts_S1x800000_S800000

/-- Row 1 of the edge array: the destination words. -/
def DST (ei : IVec S2x800000 32) : IVec S800000 32 :=
  shapeCast _ (extractStridedSlice S1x800000 ![1, 0] ei slices_S2x800000_S1x800000_1_0) shapeCasts_S1x800000_S800000

/-- `deg ^ (-1/2)` per node. -/
def DINV (ei : IVec S2x800000 32) : FVec Ideal S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 (DST ei))
      (broadcastInDim S800000 ![] bcast_S_S800000 (constant S_ .f32 0x3F800000#32)))
    (broadcastInDim S50000 ![] bcast_S_S50000 (constant S_ .f32 0x3F800000#32)))

/-- The same as a column. -/
def D2 (ei : IVec S2x800000 32) : FVec Ideal S50000x1 .f32 := shapeCast _ (DINV ei) shapeCasts_S50000_S50000x1

/-- jnp's wrap of negative index words: `w + 50000` where `w < 0`. -/
def NORM (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrapped source words as the gather's index column. -/
def TIDX (ei : IVec S2x800000 32) : IVec S800000x1 32 :=
  broadcastInDim S800000x1 ![0] bcast_S800000_S800000x1_0 (NORM (SRC ei))

/-- Per edge: is the wrapped source word a row number (`0 ≤ w ≤ 49999`)? -/
def TMASK (ei : IVec S2x800000 32) : IVec S800000 1 :=
  Host.reduce IntOp.andi
    (andi (cmpi .sge (TIDX ei) (broadcastInDim S800000x1 ![] bcast_S_S800000x1 (constantI S_ 32 0#32)))
      (cmpi .sle (TIDX ei) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- jnp.take(hs, src, axis=0): the gathered rows, the fill value where the word is no row number. -/
def TAKE (hs : FVec Ideal S50000x128 .f32) (ei : IVec S2x800000 32) : FVec Ideal S800000x128 .f32 :=
  select (broadcastInDim S800000x128 ![0] bcast_S800000_S800000x128_0 (TMASK ei))
    (Host.gather gather_S50000x128_S800000x1_S800000x128_1_0_n_n_0_1_1128 hs (TIDX ei))
    (broadcastInDim S800000x128 ![] bcast_S_S800000x128 (constant S_ .f32 0x7FC00000#32))

/-- segment_sum(take(hs, src), dst): the taken rows added into their destination rows. -/
def AGG (hs : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (DST ei))
    (TAKE hs ei)

/-- A bias vector as a row. -/
def BROW (b : FVec Ideal S128 .f32) : FVec Ideal S1x128 .f32 := shapeCast _ b shapeCasts_S128_S1x128

/-- The graph words as a column. -/
def BCOL (bt : IVec S50000 32) : IVec S50000x1 32 := shapeCast _ bt shapeCasts_S50000_S50000x1

/-- The last stretch: pooled sums over max(count, 1), times Wl, plus bl. -/
def TAIL (p : FVec Ideal S512x128 .f32) (bt : IVec S50000 32) (wl : FVec Ideal S128x1 .f32) (bl : FVec Ideal S1 .f32) :
    FVec Ideal S512x1 .f32 :=
  addf
    (Host.dotGeneral dot_S512x128_S128x1_S512x1_1_0_0_1_n_n none
      (Host.divf p
        (broadcastInDim S512x128 ![0, 1] bcast_S512x1_S512x128_0_1
          (broadcastInDim S512x1 ![0] bcast_S512_S512x1_0
            (maximumf
              (Host.scatterAdd scatter_S512_S50000x1_S50000_n_0_0_1
                (broadcastInDim S512 ![] bcast_S_S512 (constant S_ .f32 0x00000000#32))
                (broadcastInDim S50000x1 ![0] bcast_S50000_S50000x1_0 bt)
                (broadcastInDim S50000 ![] bcast_S_S50000 (constant S_ .f32 0x3F800000#32)))
              (broadcastInDim S512 ![] bcast_S_S512 (constant S_ .f32 0x3F800000#32))))))
      wl)
    (broadcastInDim S512x1 ![0, 1] bcast_S1x1_S512x1_0_1 (broadcastInDim S1x1 ![1] bcast_S1_S1x1_1 bl))

end Cert.KernelIdeal.KV

end
-- ==== Proof.Spec.lean ====
/-
  The mathematics of the two programs, index by index, on the extended reals.

  A graph of 50000 nodes and 800000 directed edges `e : src e → dst e` (row 0 and row 1 of the index
  array, read as signed words); `deg n` is one more than the number of edges into `n`, and
  `dinv n = deg n ^ (-1/2)`.  One convolution layer sends node features `x` to
  `relu (Σ_{e into n} (x W)[src e] · dinv (src e) · dinv n  +  (x W)[n] · dinv n ²  +  b)`.
  The kernel computes it as `relu (dinv n · (Σ_{e into n} hs[src e] + hs[n]) + b)` with
  `hs = (x W) · dinv` (`convK`), the reference edge by edge with the product of the two factors
  (`convR`).  The pooled sum of a graph `g` is the sum of the rows whose graph word is `g`: the
  reference adds them in one pass (`poolR`), the kernel block by block of 2000 rows as a product with
  the 0/1 membership matrix (`poolK`).
-/
import Idealize.ShloMosaic.PureOps.Ideal
import Idealize.ShloMosaic.Lib.ValueIdx

noncomputable section

open scoped BigOperators

namespace Cert.GCN

open Idealize.ShloMosaic Idealize.ShloMosaic.ValueIdx

abbrev SNH : Shape := ⟨2, ![50000, 128]⟩
abbrev SN1 : Shape := ⟨2, ![50000, 1]⟩
abbrev SE2 : Shape := ⟨2, ![2, 800000]⟩
abbrev SHH : Shape := ⟨2, ![128, 128]⟩
abbrev S1H : Shape := ⟨2, ![1, 128]⟩
abbrev SH : Shape := ⟨1, ![128]⟩
abbrev SN : Shape := ⟨1, ![50000]⟩
abbrev SGH : Shape := ⟨2, ![512, 128]⟩

/-- The float words `1.0` and `0.0` as both programs print them. -/
abbrev one : EReal := Ideal.ofBits .f32 0x3F800000#32
abbrev zero : EReal := Ideal.ofBits .f32 0x00000000#32

/-- The node a signed index word reads: itself, clamped into `[0, 49999]`. -/
def node (w : BitVec 32) : Fin 50000 := ⟨min w.toInt.toNat 49999, by omega⟩

/-- Every entry of the edge array is a node number. -/
def InRange (ei : IVec SE2 32) : Prop :=
  ∀ (r : Fin 2) (e : Fin 800000), 0 ≤ (ei (ix2 r e)).toInt ∧ (ei (ix2 r e)).toInt < 50000

/-- The edges whose destination word, read signed, is `n`. -/
def edgesInto (ei : IVec SE2 32) (n : Fin 50000) : Finset (Fin 800000) :=
  Finset.univ.filter fun e => (ei (ix2 1 e)).toInt = (n.val : Int)

/-- In-degree plus the self loop. -/
def deg (ei : IVec SE2 32) (n : Fin 50000) : EReal := (zero + ∑ _e ∈ edgesInto ei n, one) + one

def dinv (ei : IVec SE2 32) (n : Fin 50000) : EReal := Ideal.rsqrt (deg ei n)

/-- Row `n`, column `d` of `x W`. -/
def lin (x : SNH.Idx → EReal) (W : SHH.Idx → EReal) (n : Fin 50000) (d : Fin 128) : EReal :=
  ∑ k : Fin 128, x (ix2 n k) * W (ix2 k d)

/-- The kernel's scaled features `(x W) · dinv`. -/
def hsc (x : SNH.Idx → EReal) (W : SHH.Idx → EReal) (ei : IVec SE2 32) (n : Fin 50000) (d : Fin 128) : EReal :=
  lin x W n d * dinv ei n

/-- The kernel's layer. -/
def convK (x : SNH.Idx → EReal) (W : SHH.Idx → EReal) (b : SH.Idx → EReal) (ei : IVec SE2 32)
    (n : Fin 50000) (d : Fin 128) : EReal :=
  max (dinv ei n * ((zero + ∑ e ∈ edgesInto ei n, hsc x W ei (node (ei (ix2 0 e))) d) + hsc x W ei n d) + b (ix1 d)) zero

/-- The reference's layer. -/
def convR (x : SNH.Idx → EReal) (W : SHH.Idx → EReal) (b : SH.Idx → EReal) (ei : IVec SE2 32)
    (n : Fin 50000) (d : Fin 128) : EReal :=
  max (((zero + ∑ e ∈ edgesInto ei n,
          lin x W (node (ei (ix2 0 e))) d * (dinv ei (node (ei (ix2 0 e))) * dinv ei (node (ei (ix2 1 e)))))
        + lin x W n d * (dinv ei n * dinv ei n)) + b (ix1 d)) zero

/-- A function of (row, column) as an array. -/
def arr2 {A B : ℕ} (f : Fin A → Fin B → EReal) : (⟨2, ![A, B]⟩ : Shape).Idx → EReal :=
  fun i => f ⟨(i 0).val, (i 0).isLt⟩ ⟨(i 1).val, (i 1).isLt⟩

theorem arr2_ix2 {A B : ℕ} (f : Fin A → Fin B → EReal) (a : Fin A) (b : Fin B) : arr2 f (ix2 a b) = f a b := rfl

/-- Membership of row word `w` in graph `g`, as the number 1 or 0. -/
def member (w : BitVec 32) (g : Fin 512) : EReal := if w = BitVec.ofNat 32 g.val then ((1 : ℝ) : EReal) else ((0 : ℝ) : EReal)

/-- The kernel's contribution of block `t` (rows `2000 t … 2000 t + 1999`) to graph `g`, column `d`;
    `bw n` is row `n`'s graph word. -/
def poolBlock (h : SNH.Idx → EReal) (bw : Fin 50000 → BitVec 32) (t : Fin 25) (g : Fin 512) (d : Fin 128) : EReal :=
  ∑ r : Fin 2000, member (bw ⟨2000 * t.val + r.val, by omega⟩) g * h (ix2 ⟨2000 * t.val + r.val, by omega⟩ d)

/-- The kernel's accumulator after blocks `0 … t`: cleared before block 0, then each block added. -/
def poolAcc (h : SNH.Idx → EReal) (bw : Fin 50000 → BitVec 32) (g : Fin 512) (d : Fin 128) : (t : ℕ) → t < 25 → EReal
  | 0, ht => zero + poolBlock h bw ⟨0, ht⟩ g d
  | t + 1, ht => poolAcc h bw g d t (by omega) + poolBlock h bw ⟨t + 1, ht⟩ g d

def poolK (h : SNH.Idx → EReal) (bw : Fin 50000 → BitVec 32) (g : Fin 512) (d : Fin 128) : EReal :=
  poolAcc h bw g d 24 (by omega)

/-- The reference's pooled sum: the rows whose graph word, read signed, is `g`. -/
def poolR (h : SNH.Idx → EReal) (bw : Fin 50000 → BitVec 32) (g : Fin 512) (d : Fin 128) : EReal :=
  zero + ∑ n ∈ Finset.univ.filter (fun n : Fin 50000 => (bw n).toInt = (g.val : Int)), h (ix2 n d)

/-! ## The kernel's three bodies as whole-array functions -/

/-- `(x W)` with row `n` scaled by `s[n, 0]`: what the first and third kernels write. -/
def linScale (x : SNH.Idx → EReal) (W : SHH.Idx → EReal) (s : SN1.Idx → EReal) : SNH.Idx → EReal :=
  arr2 fun n d => (∑ k : Fin 128, x (ix2 n k) * W (ix2 k d)) * s (ix2 n 0)

/-- `relu (s[n,0] · (a + h) + b[0,d])`: what the second kernel writes. -/
def finish (a h : SNH.Idx → EReal) (s : SN1.Idx → EReal) (b : S1H.Idx → EReal) : SNH.Idx → EReal :=
  arr2 fun n d => max (s (ix2 n 0) * (a (ix2 n d) + h (ix2 n d)) + b (ix2 0 d)) zero

/-- The fourth kernel: the same finish, then the rows pooled block by block by their graph word `bt[n,0]`. -/
def poolFused (a h : SNH.Idx → EReal) (s : SN1.Idx → EReal) (b : S1H.Idx → EReal) (bt : SN1.Idx → BitVec 32) :
    SGH.Idx → EReal :=
  arr2 fun g d => poolK (finish a h s b) (fun n => bt (ix2 n 0)) g d

end Cert.GCN

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KReg0.lean ====
/- The first kernel over its whole grid: the output array ends at (x W) with each row scaled by its column entry. -/
import proofs.«407980_j16999480557858_3_alg».proof.Proof.Gen.KernelIdeal.Frame
import proofs.«407980_j16999480557858_3_alg».proof.Proof.Spec
import proofs.«407980_j16999480557858_3_alg».proof.Proof.LibPlainDot
import proofs.«407980_j16999480557858_3_alg».proof.Proof.LibKeepdimsColumn
import Idealize.ShloMosaic.Lib.Pipeline.Value
import Idealize.ShloMosaic.Lib.ValueIdx
import Idealize.ShloMosaic.PureOps.Ideal.Laws

noncomputable section

open scoped BigOperators

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz0 : (![0, 0] : Fin 2 → Nat) = fun _ => 0 := funext fun a => by fin_cases a <;> rfl

/-- The contraction record of the body's product is the plain one: rows of the left against columns of the right. -/
private theorem dot0_plain : dot_S5000x128_S128x128_S5000x128_1_0_0_1_n_n = DotDims.plain 5000 128 128 := rfl

/-- The body's result at row p, column q: the product row by column, times the column entry of row p. -/
private theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p 0) := by
  unfold k0_pay1
  rw [mulf_apply, dot0_plain, PlainDot.matmul_zero_apply, shapeCast_self, KeepdimsColumn.broadcastTo_a1_ab_apply]
  rfl

/-- The grid has ten points. -/
private theorem lt_ten0 (t : Fin cfg0.N) : t.val < 10 := lt_of_lt_of_eq t.isLt N_0

/-- The index maps, decided over the grid: the feature, column and output windows move one block of rows per point;
    the weight window stays at its one block. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the features is rows 5000 t … 5000 t + 4999 of the feature array. -/
private theorem xblk0_apply (c : Dev nD) (t : Fin cfg0.N) (p : Fin 5000) (k : Fin 128) :
    (iblk0 V c 0 t : Vec Ideal S5000x128 .f32) (ix2 p k)
      = (V c main_arg0 : S50000x128.Idx → EReal) (ix2 ⟨t.val * 5000 + p.val, by have := lt_ten0 t; omega⟩ k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block is the whole weight array at every point. -/
private theorem wblk0_apply (c : Dev nD) (t : Fin cfg0.N) (k q : Fin 128) :
    (iblk0 V c 1 t : Vec Ideal S128x128 .f32) (ix2 k q) = (V c main_arg3 : S128x128.Idx → EReal) (ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Block t of the column is rows 5000 t … 5000 t + 4999 of the column array. -/
private theorem sblk0_apply (c : Dev nD) (t : Fin cfg0.N) (p : Fin 5000) :
    (iblk0 V c 2 t : Vec Ideal S5000x1 .f32) (ix2 p 0)
      = (V c main_v11 : S50000x1.Idx → EReal) (ix2 ⟨t.val * 5000 + p.val, by have := lt_ten0 t; omega⟩ 0) := by
  obtain ⟨-, -, -, -, e4, e5, -⟩ := idx_facts0 t
  unfold iblk0
  rw [View.read_apply]
  show V c main_v11 _ = V c main_v11 _
  congr 1
  funext a
  apply Fin.ext
  match a with
  | ⟨0, _⟩ => show win0_2.index t (0 : Fin 2) * 5000 + 1 * p.val = t.val * 5000 + p.val; rw [e4]; omega
  | ⟨1, _⟩ => show win0_2.index t (1 : Fin 2) * 1 + 1 * (0 : Fin 1).val = (0 : Fin 1).val; rw [e5]; rfl

/-- Row p, column q of the output's block t is row 5000 t + p, column q of the output array. -/
private theorem oemb0 (t : Fin cfg0.N) (p : Fin 5000) (q : Fin 128) :
    (((cfg0.win 3).blk t).view.emb (ix2 p q) : S50000x128.Idx) = ix2 ⟨t.val * 5000 + p.val, by have := lt_ten0 t; omega⟩ q := by
  obtain ⟨-, -, -, -, -, -, e6, e7⟩ := idx_facts0 t
  funext a
  apply Fin.ext
  match a with
  | ⟨0, _⟩ => show win0_3.index t (0 : Fin 2) * 5000 + 1 * p.val = t.val * 5000 + p.val; rw [e6]; omega
  | ⟨1, _⟩ => show win0_3.index t (1 : Fin 2) * 128 + 1 * q.val = q.val; rw [e7]; omega

/-- The body on blocks that are rows 5000 b … of x, all of W, and rows 5000 b … of s gives those rows of (x W) scaled by s. -/
private theorem blk0_value (x : GCN.SNH.Idx → EReal) (W : GCN.SHH.Idx → EReal) (s : GCN.SN1.Idx → EReal) (b : Nat) (hb : b < 10)
    (x0 : Vec Ideal S5000x128 .f32) (x1 : Vec Ideal S128x128 .f32) (x2 : Vec Ideal S5000x1 .f32)
    (h0 : ∀ (p : Fin 5000) (k : Fin 128), x0 (ix2 p k) = x (ix2 ⟨b * 5000 + p.val, by omega⟩ k))
    (h1 : ∀ (k q : Fin 128), x1 (ix2 k q) = W (ix2 k q))
    (h2 : ∀ (p : Fin 5000), x2 (ix2 p 0) = s (ix2 ⟨b * 5000 + p.val, by omega⟩ 0))
    (p : Fin 5000) (q : Fin 128) :
    k0_pay1 x0 x1 x2 (ix2 p q) = GCN.linScale x W s (ix2 ⟨b * 5000 + p.val, by omega⟩ q) := by
  rw [pay0_apply]
  unfold GCN.linScale
  rw [GCN.arr2_ix2, h2]
  congr 1
  exact Finset.sum_congr rfl fun k _ => by rw [h0, h1]

/-- What point t writes back is block t of (x W) scaled by the column. -/
private theorem flushed0_eq (c : Dev nD) (t : Fin cfg0.N) :
    (dat0 (F := Ideal) V c).flushed 3 t = ((cfg0.win 3).blk t).view.read (Elt Ideal) (GCN.linScale (V c main_arg0) (V c main_arg3) (V c main_v11)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  funext j
  obtain ⟨p, q, rfl⟩ : ∃ (p : Fin 5000) (q : Fin 128), j = ix2 p q := ⟨j 0, j 1, ValueIdx.eq_ix2 j⟩
  rw [View.read_apply, oemb0]
  exact blk0_value (V c main_arg0) (V c main_arg3) (V c main_v11) t.val (lt_ten0 t) _ _ _
    (xblk0_apply V c t) (wblk0_apply V c t) (sblk0_apply V c t) p q

/-- An index of the output array is in point t's block iff each coordinate is in the block's range on its axis. -/
private theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- Row r of the output array is in the block of point r / 5000. -/
private theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  obtain ⟨-, -, -, -, -, -, e6, e7⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

theorem reg0_final (c : Dev nD) :
    (dat0 (F := Ideal) V c).arrAt 3 cfg0.N = GCN.linScale (V c main_arg0) (V c main_arg3) (V c main_v11) := by
  exact (dat0 (F := Ideal) V c).arrAt_eq_of_cover 3 _ (fun t _ => flushed0_eq V c t) cover0

end Cert.KernelIdeal.KV

end
-- ==== Proof.KReg1.lean ====
/- The second kernel over its whole grid: relu (column · (a + h) + bias row), row block by row block. -/
import proofs.«407980_j16999480557858_3_alg».proof.Proof.Gen.KernelIdeal.Frame
import proofs.«407980_j16999480557858_3_alg».proof.Proof.Spec
import proofs.«407980_j16999480557858_3_alg».proof.Proof.LibKeepdimsColumn
import Idealize.ShloMosaic.Lib.Pipeline.Value
import Idealize.ShloMosaic.Lib.ValueIdx
import Idealize.ShloMosaic.PureOps.Ideal.Laws

noncomputable section

open scoped BigOperators

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
private theorem reg1_hz : (![0, 0] : Fin 2 → Nat) = fun _ => 0 := funext fun a => by fin_cases a <;> rfl

/-- A single row [1, 128] broadcast over 2000 rows reads, at (p, q), the row at column q. -/
private theorem reg1_row_apply (x3 : Vec Ideal S1x128 .f32) (p : Fin 2000) (q : Fin 128) :
    broadcastTo S2000x128 x3 broadcasts_S1x128_S2000x128 (ix2 p q) = x3 (ix2 0 q) := by
  refine broadcastTo_apply x3 broadcasts_S1x128_S2000x128 (ix2 p q) (ix2 (0 : Fin 1) q) fun ax => ?_
  match ax with
  | ⟨0, _⟩ => rfl
  | ⟨1, _⟩ => rfl

/-- The body at one element of a block: max (column[p] · (a[p,q] + h[p,q]) + bias[q], 0). -/
private theorem reg1_pay_apply (x0 x1 : Vec Ideal S2000x128 .f32) (x2 : Vec Ideal S2000x1 .f32) (x3 : Vec Ideal S1x128 .f32)
    (p : Fin 2000) (q : Fin 128) :
    k1_pay1 x2 x0 x1 x3 (ix2 p q) = max (x2 (ix2 p 0) * (x0 (ix2 p q) + x1 (ix2 p q)) + x3 (ix2 0 q)) GCN.zero := by
  unfold k1_pay1
  simp only [shapeCast_self]
  rw [maximumf_apply, addf_apply, mulf_apply, addf_apply, broadcast_apply, reg1_row_apply]
  rw [show broadcastTo S2000x128 x2 broadcasts_S2000x1_S2000x128 (ix2 p q) = x2 (ix2 p (0 : Fin 1)) from
    KeepdimsColumn.broadcastTo_a1_ab_apply x2 broadcasts_S2000x1_S2000x128 p q]
  rfl

/-- The block indices over the grid: at point t the three row-blocked inputs and the output sit at row block t,
    column block 0; the bias row is the one block (0, 0) at every point. -/
private theorem reg1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t (rows 2000 t … 2000 t + 1999) of the finish function of the four arrays. -/
private theorem reg1_flushed_eq (c : Dev nD) (t : Fin cfg1.N) :
    (dat1 (F := Ideal) V c).flushed 4 t = ((cfg1.win 4).blk t).view.read (Elt Ideal)
      (GCN.finish (V c main_v16) (V c main_v12) (V c main_v17) (V c main_v18)) := by
  show (cfg1.win 4).cut (grid1.coords t) ((dat1 V c).after 4 t) = _
  rw [after1_4]
  unfold out1_4
  rw [View.canon_unit_zero reg1_hz]
  simp only [View.ld_unit_zero (S := S2000x128) reg1_hz, View.ld_unit_zero (S := S2000x1) reg1_hz,
    View.ld_unit_zero (S := S1x128) reg1_hz]
  obtain ⟨e0, e1, e2, e3, e4, e5, e6, e7, e8, e9⟩ := reg1_idx_facts t
  have ht : t.val < 25 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  have hq : q.val < 128 := q.isLt
  have hn : 2000 * t.val + p.val < 50000 := by omega
  show k1_pay1 (iblk1 V c 2 t) (iblk1 V c 0 t) (iblk1 V c 1 t) (iblk1 V c 3 t) (ix2 p q)
    = GCN.finish (V c main_v16) (V c main_v12) (V c main_v17) (V c main_v18) (((cfg1.win 4).blk t).view.emb (ix2 p q))
  rw [reg1_pay_apply]
  -- element (p, q) of block t is element (2000 t + p, q) of the array, for the output and the row-blocked inputs
  have g4 : ((cfg1.win 4).blk t).view.emb (ix2 p q) = ix2 (⟨2000 * t.val + p.val, hn⟩ : Fin 50000) q := by
    funext a; apply Fin.ext
    match a with
    | ⟨0, _⟩ => show win1_4.index t (0 : Fin 2) * 2000 + 1 * p.val = 2000 * t.val + p.val; omega
    | ⟨1, _⟩ => show win1_4.index t (1 : Fin 2) * 128 + 1 * q.val = q.val; omega
  have g0 : ((cfg1.win 0).blk t).view.emb (ix2 p q) = ix2 (⟨2000 * t.val + p.val, hn⟩ : Fin 50000) q := by
    funext a; apply Fin.ext
    match a with
    | ⟨0, _⟩ => show win1_0.index t (0 : Fin 2) * 2000 + 1 * p.val = 2000 * t.val + p.val; omega
    | ⟨1, _⟩ => show win1_0.index t (1 : Fin 2) * 128 + 1 * q.val = q.val; omega
  have g1 : ((cfg1.win 1).blk t).view.emb (ix2 p q) = ix2 (⟨2000 * t.val + p.val, hn⟩ : Fin 50000) q := by
    funext a; apply Fin.ext
    match a with
    | ⟨0, _⟩ => show win1_1.index t (0 : Fin 2) * 2000 + 1 * p.val = 2000 * t.val + p.val; omega
    | ⟨1, _⟩ => show win1_1.index t (1 : Fin 2) * 128 + 1 * q.val = q.val; omega
  -- the column's element (p, 0) of block t is element (2000 t + p, 0) of the column
  have g2 : ((cfg1.win 2).blk t).view.emb (ix2 p (0 : Fin 1)) = ix2 (⟨2000 * t.val + p.val, hn⟩ : Fin 50000) (0 : Fin 1) := by
    funext a; apply Fin.ext
    match a with
    | ⟨0, _⟩ => show win1_2.index t (0 : Fin 2) * 2000 + 1 * p.val = 2000 * t.val + p.val; omega
    | ⟨1, _⟩ => show win1_2.index t (1 : Fin 2) * 1 + 1 * 0 = 0; omega
  -- the bias row's block is the whole row
  have g3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h0 : iblk1 V c 0 t (ix2 p q) = V c main_v16 (ix2 (⟨2000 * t.val + p.val, hn⟩ : Fin 50000) q) := by
    show V c main_v16 (((cfg1.win 0).blk t).view.emb (ix2 p q)) = _
    rw [g0]
  have h1 : iblk1 V c 1 t (ix2 p q) = V c main_v12 (ix2 (⟨2000 * t.val + p.val, hn⟩ : Fin 50000) q) := by
    show V c main_v12 (((cfg1.win 1).blk t).view.emb (ix2 p q)) = _
    rw [g1]
  have h2 : iblk1 V c 2 t (ix2 p (0 : Fin 1)) = V c main_v17 (ix2 (⟨2000 * t.val + p.val, hn⟩ : Fin 50000) (0 : Fin 1)) := by
    show V c main_v17 (((cfg1.win 2).blk t).view.emb (ix2 p (0 : Fin 1))) = _
    rw [g2]
  have h3 : iblk1 V c 3 t (ix2 (0 : Fin 1) q) = V c main_v18 (ix2 (0 : Fin 1) q) := by
    show V c main_v18 (((cfg1.win 3).blk t).view.emb (ix2 (0 : Fin 1) q)) = _
    rw [g3]
  rw [g4, h0, h1, h2, h3]
  rfl

/-- An index of the output array is in point t's block iff each coordinate is in the block's range on its axis. -/
private theorem reg1_mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v19).slice (win1_4.rect t)).set ↔ _
  rw [View.set_slice_whole, Rect.mem_set_unit]
  exact Iff.rfl

/-- The 25 blocks of 2000 rows cover the 50000 rows: row r lies in the block of point r / 2000. -/
private theorem reg1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5, e6, e7, e8, e9⟩ := reg1_idx_facts t
  have ht : t.val = (i 0).val / 2000 := rfl
  refine ⟨t, flush1_4 t, ?_⟩
  rw [reg1_mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

theorem reg1_final (c : Dev nD) :
    (dat1 (F := Ideal) V c).arrAt 4 cfg1.N = GCN.finish (V c main_v16) (V c main_v12) (V c main_v17) (V c main_v18) := by
  exact (dat1 (F := Ideal) V c).arrAt_eq_of_cover 4 _ (fun t _ => reg1_flushed_eq V c t) reg1_cover

end Cert.KernelIdeal.KV

end
-- ==== Proof.KReg2.lean ====
/- The third kernel over its whole grid: the output array ends at (h W) with each row scaled by its column entry. -/
import proofs.«407980_j16999480557858_3_alg».proof.Proof.Gen.KernelIdeal.Frame
import proofs.«407980_j16999480557858_3_alg».proof.Proof.Spec
import proofs.«407980_j16999480557858_3_alg».proof.Proof.LibPlainDot
import proofs.«407980_j16999480557858_3_alg».proof.Proof.LibKeepdimsColumn
import Idealize.ShloMosaic.Lib.Pipeline.Value
import Idealize.ShloMosaic.Lib.ValueIdx
import Idealize.ShloMosaic.PureOps.Ideal.Laws

noncomputable section

open scoped BigOperators

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz2r : (![0, 0] : Fin 2 → Nat) = fun _ => 0 := funext fun a => by fin_cases a <;> rfl

/-- The contraction record of the body's product is the plain one: rows of the left against columns of the right. -/
private theorem dot2_plain : dot_S5000x128_S128x128_S5000x128_1_0_0_1_n_n = DotDims.plain 5000 128 128 := rfl

/-- The body's result at row p, column q: the product row by column, times the column entry of row p. -/
private theorem pay2_apply (x0 : Vec Ideal S5000x128 .f32) (x1 : Vec Ideal S128x128 .f32) (x2 : Vec Ideal S5000x1 .f32)
    (p : Fin 5000) (q : Fin 128) :
    k2_pay1 x0 x1 x2 (ix2 p q) = (∑ k : Fin 128, x0 (ix2 p k) * x1 (ix2 k q)) * x2 (ix2 p 0) := by
  unfold k2_pay1
  simp only [shapeCast_self]
  rw [mulf_apply, dot2_plain, PlainDot.matmul_zero_apply, KeepdimsColumn.broadcastTo_a1_ab_apply]
  rfl

/-- The grid has ten points. -/
private theorem lt_ten2 (t : Fin cfg2.N) : t.val < 10 := lt_of_lt_of_eq t.isLt N_2

/-- The index maps, decided over the grid: the feature, column and output windows move one block of rows per point;
    the weight window stays at its one block. -/
private theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Block t of the features is rows 5000 t … 5000 t + 4999 of the feature array. -/
private theorem xblk2_apply (c : Dev nD) (t : Fin cfg2.N) (p : Fin 5000) (k : Fin 128) :
    (iblk2 V c 0 t : Vec Ideal S5000x128 .f32) (ix2 p k)
      = (V c main_v19 : S50000x128.Idx → EReal) (ix2 ⟨t.val * 5000 + p.val, by have := lt_ten2 t; omega⟩ k) := by
  obtain ⟨e0, e1, -⟩ := idx_facts2 t
  unfold iblk2
  rw [View.read_apply]
  show V c main_v19 _ = V c main_v19 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight block is the whole weight array at every point. -/
private theorem wblk2_apply (c : Dev nD) (t : Fin cfg2.N) (k q : Fin 128) :
    (iblk2 V c 1 t : Vec Ideal S128x128 .f32) (ix2 k q) = (V c main_arg5 : S128x128.Idx → EReal) (ix2 k q) := by
  obtain ⟨-, -, e2, e3, -⟩ := idx_facts2 t
  unfold iblk2
  rw [View.read_apply]
  show V c main_arg5 _ = V c main_arg5 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Block t of the column is rows 5000 t … 5000 t + 4999 of the column array. -/
private theorem sblk2_apply (c : Dev nD) (t : Fin cfg2.N) (p : Fin 5000) :
    (iblk2 V c 2 t : Vec Ideal S5000x1 .f32) (ix2 p 0)
      = (V c main_v20 : S50000x1.Idx → EReal) (ix2 ⟨t.val * 5000 + p.val, by have := lt_ten2 t; omega⟩ 0) := by
  obtain ⟨-, -, -, -, e4, e5, -⟩ := idx_facts2 t
  unfold iblk2
  rw [View.read_apply]
  show V c main_v20 _ = V c main_v20 _
  congr 1
  funext a
  apply Fin.ext
  match a with
  | ⟨0, _⟩ => show win2_2.index t (0 : Fin 2) * 5000 + 1 * p.val = t.val * 5000 + p.val; rw [e4]; omega
  | ⟨1, _⟩ => show win2_2.index t (1 : Fin 2) * 1 + 1 * (0 : Fin 1).val = (0 : Fin 1).val; rw [e5]; rfl

/-- Row p, column q of the output's block t is row 5000 t + p, column q of the output array. -/
private theorem oemb2 (t : Fin cfg2.N) (p : Fin 5000) (q : Fin 128) :
    (((cfg2.win 3).blk t).view.emb (ix2 p q) : S50000x128.Idx) = ix2 ⟨t.val * 5000 + p.val, by have := lt_ten2 t; omega⟩ q := by
  obtain ⟨-, -, -, -, -, -, e6, e7⟩ := idx_facts2 t
  funext a
  apply Fin.ext
  match a with
  | ⟨0, _⟩ => show win2_3.index t (0 : Fin 2) * 5000 + 1 * p.val = t.val * 5000 + p.val; rw [e6]; omega
  | ⟨1, _⟩ => show win2_3.index t (1 : Fin 2) * 128 + 1 * q.val = q.val; rw [e7]; omega

/-- The body on blocks that are rows 5000 b … of x, all of W, and rows 5000 b … of s gives those rows of (x W) scaled by s. -/
private theorem blk2_value (x : GCN.SNH.Idx → EReal) (W : GCN.SHH.Idx → EReal) (s : GCN.SN1.Idx → EReal) (b : Nat) (hb : b < 10)
    (x0 : Vec Ideal S5000x128 .f32) (x1 : Vec Ideal S128x128 .f32) (x2 : Vec Ideal S5000x1 .f32)
    (h0 : ∀ (p : Fin 5000) (k : Fin 128), x0 (ix2 p k) = x (ix2 ⟨b * 5000 + p.val, by omega⟩ k))
    (h1 : ∀ (k q : Fin 128), x1 (ix2 k q) = W (ix2 k q))
    (h2 : ∀ (p : Fin 5000), x2 (ix2 p 0) = s (ix2 ⟨b * 5000 + p.val, by omega⟩ 0))
    (p : Fin 5000) (q : Fin 128) :
    k2_pay1 x0 x1 x2 (ix2 p q) = GCN.linScale x W s (ix2 ⟨b * 5000 + p.val, by omega⟩ q) := by
  rw [pay2_apply]
  unfold GCN.linScale
  rw [GCN.arr2_ix2, h2]
  congr 1
  exact Finset.sum_congr rfl fun k _ => by rw [h0, h1]

/-- What point t writes back is block t of (x W) scaled by the column. -/
private theorem flushed2_eq (c : Dev nD) (t : Fin cfg2.N) :
    (dat2 (F := Ideal) V c).flushed 3 t = ((cfg2.win 3).blk t).view.read (Elt Ideal) (GCN.linScale (V c main_v19) (V c main_arg5) (V c main_v20)) := by
  show (cfg2.win 3).cut (grid2.coords t) ((dat2 V c).after 3 t) = _
  rw [after2_3]
  unfold out2_3
  rw [View.canon_unit_zero hz2r]
  simp only [View.ld_unit_zero (S := S5000x128) hz2r, View.ld_unit_zero (S := S128x128) hz2r, View.ld_unit_zero (S := S5000x1) hz2r]
  funext j
  obtain ⟨p, q, rfl⟩ : ∃ (p : Fin 5000) (q : Fin 128), j = ix2 p q := ⟨j 0, j 1, ValueIdx.eq_ix2 j⟩
  rw [View.read_apply, oemb2]
  exact blk2_value (V c main_v19) (V c main_arg5) (V c main_v20) t.val (lt_ten2 t) _ _ _
    (xblk2_apply V c t) (wblk2_apply V c t) (sblk2_apply V c t) p q

/-- An index of the output array is in point t's block iff each coordinate is in the block's range on its axis. -/
private theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v21).slice (win2_3.rect t)).set ↔ _
  rw [View.set_slice_whole, Rect.mem_set_unit]
  exact Iff.rfl

/-- Row r of the output array is in the block of point r / 5000. -/
private theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, lt_of_lt_of_eq (by omega : (i 0).val / 5000 < 10) N_2.symm⟩
  obtain ⟨-, -, -, -, -, -, e6, e7⟩ := idx_facts2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 128 ≤ (i 1).val ∧ (i 1).val < win2_3.index t (1 : Fin 2) * 128 + 128; rw [e7]; omega

theorem reg2_final (c : Dev nD) :
    (dat2 (F := Ideal) V c).arrAt 3 cfg2.N = GCN.linScale (V c main_v19) (V c main_arg5) (V c main_v20) := by
  exact (dat2 (F := Ideal) V c).arrAt_eq_of_cover 3 _ (fun t _ => flushed2_eq V c t) cover2

end Cert.KernelIdeal.KV

end
-- ==== Proof.KReg3.lean ====
/- The fourth kernel over its whole grid: the resident output block is cleared at the first point and gains each
   block's membership-weighted row sums; after the last point it is the pooled sum. -/
import proofs.«407980_j16999480557858_3_alg».proof.Proof.Gen.KernelIdeal.Frame
import proofs.«407980_j16999480557858_3_alg».proof.Proof.Spec
import proofs.«407980_j16999480557858_3_alg».proof.Proof.LibKeepdimsColumn
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

/-! What each of the two cases leaves in the resident block: the stored value, over the blocks loaded whole. -/

section Pieces
variable {F : FTy → Type} [FloatOps F]

private theorem hz3 : (![0, 0] : Fin 2 → Nat) = fun _ => 0 := funext fun a => by fin_cases a <;> rfl

/-- Away from the first point the block ends at the stored value over what it held before. -/
private theorem piece_B (c : Dev nD) (i : grid3.Coords) (a1 : Memref sig .tc .vmem S2000x128 .f32) (h1 : a1.IsWhole)
    (a2 : Memref sig .tc .vmem S2000x128 .f32) (h2 : a2.IsWhole) (a3 : Memref sig .tc .vmem S2000x1 .f32) (h3 : a3.IsWhole)
    (a4 : Memref sig .tc .vmem S1x128 .f32) (h4 : a4.IsWhole) (a5 : Memref sig .tc .vmem S2000x1 .i32) (h5 : a5.IsWhole)
    (a6 : Memref sig .tc .vmem S512x128 .f32) (h6 : a6.IsWhole) (hc : ¬cond3_0 i)
    (x0 : Vec F S2000x128 .f32) (x1 : Vec F S2000x128 .f32) (x2 : Vec F S2000x1 .f32) (x3 : Vec F S1x128 .f32) (x4 : Vec F S2000x1 .i32) (xo : Vec F S512x128 .f32) :
    out3_B_5 c i a1 h1 a2 h2 a3 h3 a4 h4 a5 h5 a6 h6 hc x0 x1 x2 x3 x4 xo = k3_pay2 x2 x0 x1 x3 x4 xo := by
  unfold out3_B_5
  rw [View.read_writes_eq_canon _ _ _ (cover3_B_5 c i a1 h1 a2 h2 a3 h3 a4 h4 a5 h5 a6 h6 hc x0 x1 x2 x3 x4 xo)]
  unfold kernelRun3_B
  dsimp only
  sl_unfold_words
  rw [View.canon_unit_zero hz3]
  simp only [View.readAt_eq_ld, h1.read_unread, h2.read_unread, h3.read_unread, h4.read_unread, h5.read_unread, h6.read_unread,
    View.ld_unit_zero (S := S2000x128) hz3, View.ld_unit_zero (S := S2000x1) hz3, View.ld_unit_zero (S := S1x128) hz3,
    View.ld_unit_zero (S := S512x128) hz3]

/-- At the first point the block is cleared first, so it ends at the stored value over the zero block. -/
private theorem piece_A (c : Dev nD) (i : grid3.Coords) (a1 : Memref sig .tc .vmem S2000x128 .f32) (h1 : a1.IsWhole)
    (a2 : Memref sig .tc .vmem S2000x128 .f32) (h2 : a2.IsWhole) (a3 : Memref sig .tc .vmem S2000x1 .f32) (h3 : a3.IsWhole)
    (a4 : Memref sig .tc .vmem S1x128 .f32) (h4 : a4.IsWhole) (a5 : Memref sig .tc .vmem S2000x1 .i32) (h5 : a5.IsWhole)
    (a6 : Memref sig .tc .vmem S512x128 .f32) (h6 : a6.IsWhole) (hc : cond3_0 i)
    (x0 : Vec F S2000x128 .f32) (x1 : Vec F S2000x128 .f32) (x2 : Vec F S2000x1 .f32) (x3 : Vec F S1x128 .f32) (x4 : Vec F S2000x1 .i32) :
    out3_A_5 c i a1 h1 a2 h2 a3 h3 a4 h4 a5 h5 a6 h6 hc x0 x1 x2 x3 x4 = k3_pay2 x2 x0 x1 x3 x4 (k3_pay1 (F := F)) := by
  unfold out3_A_5
  rw [View.read_writes_eq_canon _ _ _ (cover3_A_5 c i a1 h1 a2 h2 a3 h3 a4 h4 a5 h5 a6 h6 hc x0 x1 x2 x3 x4)]
  unfold kernelRun3_A
  dsimp only
  sl_unfold_words
  rw [View.canon_cons_unit_zero (S := S512x128) hz3, View.readCov_unit_zero (S := S512x128) _ hz3]
  simp only [View.readAt_eq_ld, h1.read_unread, h2.read_unread, h3.read_unread, h4.read_unread, h5.read_unread,
    View.ld_unit_zero (S := S2000x128) hz3, View.ld_unit_zero (S := S2000x1) hz3, View.ld_unit_zero (S := S1x128) hz3]
end Pieces

/-! The product contracting the rows of both operands, read at an index. -/

private theorem pool_lhs_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
private theorem pool_lhs_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
private theorem pool_rhs_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
private theorem pool_rhs_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The product into a zero accumulator at (g, d) is the sum over the rows r of L[r, g] * R[r, d]. -/
private theorem pool_matmul_apply {φ₁ φ₂ : FTy} (prec : Option ContractPrecision)
    (L : FVec Ideal S2000x512 φ₁) (R : FVec Ideal S2000x128 φ₂) (g : Fin 512) (d : Fin 128) :
    matmul (F := Ideal) dot_S2000x512_S2000x128_S512x128_0_0_1_1_n_n prec L R (constant S512x128 .f32 0x00000000#32) (ix2 g d)
      = ∑ r : Fin 2000, L (ix2 r g) * R (ix2 r d) := by
  show FloatOps.matmul dot_S2000x512_S2000x128_S512x128_0_0_1_1_n_n prec L R (constant S512x128 .f32 0x00000000#32) (ix2 g d) = _
  rw [Ideal.matmul_constant_zero_apply, ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g d) ((contrEquiv1 dot_S2000x512_S2000x128_S512x128_0_0_1_1_n_n 2000 rfl rfl).symm k) = ix2 k g :=
    funext fun a => Fin.ext (by
      match a with
      | ⟨0, _⟩ => exact (pool_lhs_0 _ _).trans hk
      | ⟨1, _⟩ => exact pool_lhs_1 _ _)
  have er : dot_S2000x512_S2000x128_S512x128_0_0_1_1_n_n.rhsIdx (ix2 g d) ((contrEquiv1 dot_S2000x512_S2000x128_S512x128_0_0_1_1_n_n 2000 rfl rfl).symm k) = ix2 k d :=
    funext fun a => Fin.ext (by
      match a with
      | ⟨0, _⟩ => exact (pool_rhs_0 _ _).trans hk
      | ⟨1, _⟩ => exact pool_rhs_1 _ _)
  rw [el, er]

/-- The 0/1 word of an equality test, widened and read as a signed integer, is the membership number. -/
private theorem member_of_cmpi (w : BitVec 32) (g : Fin 512) :
    (((((IntOp.cmpi .eq w (BitVec.ofNat 32 g.val)).setWidth 32).toInt : ℤ) : ℝ) : EReal) = GCN.member w g := by
  unfold GCN.member IntOp.cmpi
  by_cases h : w = BitVec.ofNat 32 g.val
  · rw [if_pos h]; subst h; simp
  · rw [if_neg h]
    have : (w == BitVec.ofNat 32 g.val) = false := by simpa using h
    simp [this]

/-- The stored value at (g, d): what the block held there plus the membership-weighted column sum of the finished rows. -/
private theorem pay2_apply (x2 : Vec Ideal S2000x1 .f32) (x0 x1 : Vec Ideal S2000x128 .f32) (x3 : Vec Ideal S1x128 .f32)
    (x4 : Vec Ideal S2000x1 .i32) (xo : Vec Ideal S512x128 .f32) (g : Fin 512) (d : Fin 128) :
    k3_pay2 x2 x0 x1 x3 x4 xo (ix2 g d)
      = xo (ix2 g d) + ∑ r : Fin 2000, GCN.member (x4 (ix2 r 0)) g
          * max (x2 (ix2 r 0) * (x0 (ix2 r d) + x1 (ix2 r d)) + x3 (ix2 0 d)) GCN.zero := by
  unfold k3_pay2
  dsimp only
  refine (addf_apply _ _ _).trans ?_
  refine congrArg₂ (· + ·) (congrFun (shapeCast_self xo _) _) ?_
  refine (pool_matmul_apply none _ _ g d).trans ?_
  refine Finset.sum_congr rfl fun r _ => ?_
  refine congrArg₂ (· * ·) ?_ ?_
  · refine Eq.trans ?_ (member_of_cmpi (x4 (ix2 r 0)) g)
    show (((((IntOp.cmpi .eq (broadcastTo S2000x512 (shapeCast S2000x1 x4 shapeCasts_S2000x1_S2000x1) broadcasts_S2000x1_S2000x512 (ix2 r g))
      (iota .tc S2000x512 32 [1] iota_S2000x512_d1_w32 (ix2 r g))).setWidth 32).toInt : ℤ) : ℝ) : EReal) = _
    rw [KeepdimsColumn.broadcastTo_a1_ab_apply, shapeCast_self, iota_single_apply]
  · show max (broadcastTo S2000x128 (shapeCast S2000x1 x2 shapeCasts_S2000x1_S2000x1) broadcasts_S2000x1_S2000x128 (ix2 r d)
        * (shapeCast S2000x128 x0 shapeCasts_S2000x128_S2000x128 (ix2 r d) + shapeCast S2000x128 x1 shapeCasts_S2000x128_S2000x128 (ix2 r d))
        + broadcastTo S2000x128 (shapeCast S1x128 x3 shapeCasts_S1x128_S1x128) broadcasts_S1x128_S2000x128 (ix2 r d)) GCN.zero = _
    rw [KeepdimsColumn.broadcastTo_a1_ab_apply, broadcastTo_1b_ab_apply, shapeCast_self, shapeCast_self, shapeCast_self, shapeCast_self]

variable (V : (c : Dev nD) → (b : Ref sig .tc) → Buf (Elt Ideal) ((c : Thread nD τ).loc b))

/-! The five arrays the region reads and the five blocks of a point, each at its literal type. -/
private abbrev aArr (c : Dev nD) : Vec Ideal S50000x128 .f32 := V c main_v25
private abbrev hArr (c : Dev nD) : Vec Ideal S50000x128 .f32 := V c main_v21
private abbrev sArr (c : Dev nD) : Vec Ideal S50000x1 .f32 := V c main_v26
private abbrev bArr (c : Dev nD) : Vec Ideal S1x128 .f32 := V c main_v27
private abbrev wArr (c : Dev nD) : Vec Ideal S50000x1 .i32 := V c main_v28
private abbrev aBlk (c : Dev nD) (t : Fin cfg3.N) : Vec Ideal S2000x128 .f32 := iblk3 V c 0 t
private abbrev hBlk (c : Dev nD) (t : Fin cfg3.N) : Vec Ideal S2000x128 .f32 := iblk3 V c 1 t
private abbrev sBlk (c : Dev nD) (t : Fin cfg3.N) : Vec Ideal S2000x1 .f32 := iblk3 V c 2 t
private abbrev bBlk (c : Dev nD) (t : Fin cfg3.N) : Vec Ideal S1x128 .f32 := iblk3 V c 3 t
private abbrev wBlk (c : Dev nD) (t : Fin cfg3.N) : Vec Ideal S2000x1 .i32 := iblk3 V c 4 t

/-- The block index of every window at point t: the row windows sit at block t, the bias and the output at block 0. -/
private theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0 :=
  (by decide +kernel : ∀ t : Fin grid3.N, _)

private theorem aBlk_apply (c : Dev nD) (t : Fin cfg3.N) (r : Fin 2000) (d : Fin 128) (h : 2000 * t.val + r.val < 50000) :
    aBlk V c t (ix2 r d) = aArr V c (ix2 ⟨2000 * t.val + r.val, h⟩ d) := by
  obtain ⟨e0, e1, -⟩ := idx_facts3 t
  unfold aBlk iblk3
  rw [View.read_apply]
  show V c main_v25 _ = V c main_v25 _
  congr 1
  funext a
  apply Fin.ext
  match a with
  | ⟨0, _⟩ => show win3_0.index t 0 * 2000 + 1 * r.val = 2000 * t.val + r.val; rw [e0]; omega
  | ⟨1, _⟩ => show win3_0.index t 1 * 128 + 1 * d.val = d.val; rw [e1]; omega

private theorem hBlk_apply (c : Dev nD) (t : Fin cfg3.N) (r : Fin 2000) (d : Fin 128) (h : 2000 * t.val + r.val < 50000) :
    hBlk V c t (ix2 r d) = hArr V c (ix2 ⟨2000 * t.val + r.val, h⟩ d) := by
  obtain ⟨-, -, e0, e1, -⟩ := idx_facts3 t
  unfold hBlk iblk3
  rw [View.read_apply]
  show V c main_v21 _ = V c main_v21 _
  congr 1
  funext a
  apply Fin.ext
  match a with
  | ⟨0, _⟩ => show win3_1.index t 0 * 2000 + 1 * r.val = 2000 * t.val + r.val; rw [e0]; omega
  | ⟨1, _⟩ => show win3_1.index t 1 * 128 + 1 * d.val = d.val; rw [e1]; omega

private theorem sBlk_apply (c : Dev nD) (t : Fin cfg3.N) (r : Fin 2000) (h : 2000 * t.val + r.val < 50000) :
    sBlk V c t (ix2 r 0) = sArr V c (ix2 ⟨2000 * t.val + r.val, h⟩ 0) := by
  obtain ⟨-, -, -, -, e0, e1, -⟩ := idx_facts3 t
  unfold sBlk iblk3
  rw [View.read_apply]
  show V c main_v26 _ = V c main_v26 _
  congr 1
  funext a
  apply Fin.ext
  match a with
  | ⟨0, _⟩ => show win3_2.index t 0 * 2000 + 1 * r.val = 2000 * t.val + r.val; rw [e0]; omega
  | ⟨1, _⟩ => show win3_2.index t 1 * 1 + 1 * 0 = 0; rw [e1]

private theorem bBlk_apply (c : Dev nD) (t : Fin cfg3.N) (d : Fin 128) :
    bBlk V c t (ix2 0 d) = bArr V c (ix2 0 d) := by
  obtain ⟨-, -, -, -, -, -, e0, e1, -⟩ := idx_facts3 t
  unfold bBlk iblk3
  rw [View.read_apply]
  show V c main_v27 _ = V c main_v27 _
  congr 1
  funext a
  apply Fin.ext
  match a with
  | ⟨0, _⟩ => show win3_3.index t 0 * 1 + 1 * 0 = 0; rw [e0]
  | ⟨1, _⟩ => show win3_3.index t 1 * 128 + 1 * d.val = d.val; rw [e1]; omega

private theorem wBlk_apply (c : Dev nD) (t : Fin cfg3.N) (r : Fin 2000) (h : 2000 * t.val + r.val < 50000) :
    wBlk V c t (ix2 r 0) = wArr V c (ix2 ⟨2000 * t.val + r.val, h⟩ 0) := by
  obtain ⟨-, -, -, -, -, -, -, -, e0, e1, -⟩ := idx_facts3 t
  unfold wBlk iblk3
  rw [View.read_apply]
  show V c main_v28 _ = V c main_v28 _
  congr 1
  funext a
  apply Fin.ext
  match a with
  | ⟨0, _⟩ => show win3_4.index t 0 * 2000 + 1 * r.val = 2000 * t.val + r.val; rw [e0]; omega
  | ⟨1, _⟩ => show win3_4.index t 1 * 1 + 1 * 0 = 0; rw [e1]

/-- The contribution of point t's blocks is the specification's block sum of the whole arrays. -/
private theorem block_eq (c : Dev nD) (t : Fin cfg3.N) (ht : t.val < 25) (g : Fin 512) (d : Fin 128) :
    (∑ r : Fin 2000, GCN.member (wBlk V c t (ix2 r 0)) g
        * max (sBlk V c t (ix2 r 0) * (aBlk V c t (ix2 r d) + hBlk V c t (ix2 r d)) + bBlk V c t (ix2 0 d)) GCN.zero)
      = GCN.poolBlock (GCN.finish (aArr V c) (hArr V c) (sArr V c) (bArr V c)) (fun n => wArr V c (ix2 n 0)) ⟨t.val, ht⟩ g d := by
  unfold GCN.poolBlock
  refine Finset.sum_congr rfl fun r _ => ?_
  have h : 2000 * t.val + r.val < 50000 := by have := r.isLt; omega
  rw [wBlk_apply V c t r h, sBlk_apply V c t r h, aBlk_apply V c t r d h, hBlk_apply V c t r d h, bBlk_apply V c t d]
  rfl

/-- After point n the resident block holds the specification's accumulator after blocks 0 … n. -/
private theorem acc_eq (c : Dev nD) : ∀ (n : ℕ) (hn : n < cfg3.N) (g : Fin 512) (d : Fin 128),
    outsAt3 V c n hn (ix2 g d)
      = GCN.poolAcc (GCN.finish (aArr V c) (hArr V c) (sArr V c) (bArr V c)) (fun n => wArr V c (ix2 n 0)) g d n
          (lt_of_lt_of_eq hn N_3)
  | 0, hn, g, d => by
    have h0 : (⟨0, hn⟩ : Fin cfg3.N).val % 25 = 0 := rfl
    refine (congrFun (outsAt3_A V c ⟨0, hn⟩ h0) (ix2 g d)).trans ?_
    refine (congrFun (piece_A (F := Ideal) c (grid3.coords ⟨0, hn⟩) (ms3_0 ⟨0, hn⟩) (hs3_0 ⟨0, hn⟩) (ms3_1 ⟨0, hn⟩) (hs3_1 ⟨0, hn⟩)
      (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩)
      ((hcond3_0 ⟨0, hn⟩).mpr h0) (aBlk V c ⟨0, hn⟩) (hBlk V c ⟨0, hn⟩) (sBlk V c ⟨0, hn⟩) (bBlk V c ⟨0, hn⟩) (wBlk V c ⟨0, hn⟩)) (ix2 g d)).trans ?_
    refine (pay2_apply (sBlk V c ⟨0, hn⟩) (aBlk V c ⟨0, hn⟩) (hBlk V c ⟨0, hn⟩) (bBlk V c ⟨0, hn⟩) (wBlk V c ⟨0, hn⟩) (k3_pay1 (F := Ideal)) g d).trans ?_
    show GCN.zero + _ = GCN.zero + GCN.poolBlock _ _ ⟨0, _⟩ g d
    exact congrArg (GCN.zero + ·) (block_eq V c ⟨0, hn⟩ (show (0 : ℕ) < 25 by decide) g d)
  | n + 1, hn, g, d => by
    have hN : n + 1 < 25 := lt_of_lt_of_eq hn N_3
    have hB : ¬(⟨n + 1, hn⟩ : Fin cfg3.N).val % 25 = 0 := by dsimp only; omega
    refine (congrFun (outsAt3_B V c ⟨n + 1, hn⟩ hB) (ix2 g d)).trans ?_
    refine (congrFun (piece_B (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩)
      (fun h => hB ((hcond3_0 ⟨n + 1, hn⟩).mp h)) (aBlk V c ⟨n + 1, hn⟩) (hBlk V c ⟨n + 1, hn⟩) (sBlk V c ⟨n + 1, hn⟩) (bBlk V c ⟨n + 1, hn⟩) (wBlk V c ⟨n + 1, hn⟩)
      (outsAt3 V c n (Nat.lt_of_succ_lt hn))) (ix2 g d)).trans ?_
    refine (pay2_apply (sBlk V c ⟨n + 1, hn⟩) (aBlk V c ⟨n + 1, hn⟩) (hBlk V c ⟨n + 1, hn⟩) (bBlk V c ⟨n + 1, hn⟩) (wBlk V c ⟨n + 1, hn⟩)
      (outsAt3 V c n (Nat.lt_of_succ_lt hn)) g d).trans ?_
    show outsAt3 V c n _ (ix2 g d) + _ = GCN.poolAcc _ _ g d n _ + GCN.poolBlock _ _ ⟨n + 1, _⟩ g d
    exact congrArg₂ (· + ·) (acc_eq c n (Nat.lt_of_succ_lt hn) g d) (block_eq V c ⟨n + 1, hn⟩ hN g d)

/-- After the last point the resident block is the pooled sum. -/
private theorem pool_last (c : Dev nD) (h24 : 24 < cfg3.N) :
    outsAt3 V c 24 h24 = GCN.poolFused (V c main_v25) (V c main_v21) (V c main_v26) (V c main_v27) (V c main_v28) := by
  funext i
  obtain ⟨g, d, rfl⟩ : ∃ (g : Fin 512) (d : Fin 128), i = ix2 g d := ⟨i 0, i 1, eq_ix2 i⟩
  exact acc_eq V c 24 h24 g d

/-- The last grid point. -/
private abbrev tLast : Fin cfg3.N := ⟨24, by rw [show cfg3.N = 25 from N_3]; decide⟩

/-- The one write-back, at the last point, writes the pooled sum: the block is the whole array. -/
private theorem flushed_eq (c : Dev nD) (t : Fin cfg3.N) (hf : (cfg3.win 5).flush t = true) :
    (dat3 (F := Ideal) V c).flushed 5 t = ((cfg3.win 5).blk t).view.read (Elt Ideal)
      (GCN.poolFused (V c main_v25) (V c main_v21) (V c main_v26) (V c main_v27) (V c main_v28)) := by
  have hN : cfg3.N = 25 := N_3
  have h24 : t.val = 24 := by have := (flush3_5 t).mp hf; have := t.isLt; omega
  obtain rfl : t = tLast := Fin.ext h24
  show (cfg3.win 5).cut (grid3.coords tLast) ((dat3 V c).after 5 tLast) = _
  rw [after3_5, pool_last]
  have hz' : (fun a => win3_5.index tLast a * main_v29.ty.shape.size a) = fun _ => 0 := funext fun a => by fin_cases a <;> decide
  exact (Memref.read_access_unit_zero (Elt Ideal) main_v29 hz' (fun a => by rw [congrFun hz' a]; simp)
    (GCN.poolFused (V c main_v25) (V c main_v21) (V c main_v26) (V c main_v27) (V c main_v28))).symm

theorem reg3_final (c : Dev nD) :
    (dat3 (F := Ideal) V c).arrAt 5 cfg3.N
      = GCN.poolFused (V c main_v25) (V c main_v21) (V c main_v26) (V c main_v27) (V c main_v28) :=
  (dat3 (F := Ideal) V c).arrAt_eq_of_cover 5 _ (flushed_eq V c) fun i =>
    ⟨tLast, (flush3_5 tLast).mpr rfl, by
      show i ∈ ((View.whole main_v29).slice (win3_5.rect tLast)).set
      rw [View.set_slice_whole, Rect.mem_set_unit]
      intro a
      have h0 : (i 0 : Nat) < 512 := (i 0).isLt
      have h1 : (i 1 : Nat) < 128 := (i 1).isLt
      match a with
      | ⟨0, _⟩ => show win3_5.index tLast 0 * win3_5.size 0 ≤ (i 0 : Nat) ∧ (i 0 : Nat) < win3_5.index tLast 0 * win3_5.size 0 + win3_5.xsize (grid3.coords tLast) 0
                  rw [show win3_5.index tLast 0 * win3_5.size 0 = 0 from by decide +kernel, show win3_5.xsize (grid3.coords tLast) 0 = 512 from by decide +kernel]; omega
      | ⟨1, _⟩ => show win3_5.index tLast 1 * win3_5.size 1 ≤ (i 1 : Nat) ∧ (i 1 : Nat) < win3_5.index tLast 1 * win3_5.size 1 + win3_5.xsize (grid3.coords tLast) 1
                  rw [show win3_5.index tLast 1 * win3_5.size 1 = 0 from by decide +kernel, show win3_5.xsize (grid3.coords tLast) 1 = 128 from by decide +kernel]; omega⟩

end Cert.KernelIdeal.KV

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KChain.lean ====
/-
  The kernel's program boundary by boundary.  Between its launch and its return the program alternates stretches
  of host operations with the four kernels; here each buffer a later step reads is named at each boundary as a
  whole-array function of the argument arrays:
    the column of inverse root degrees  D2 ei  (computed once, reshaped anew before every kernel),
    hs₁ = (x W₁)·dinv,  its rows taken by source and added by destination  AGG hs₁ ei,
    h₁ = relu (dinv·(AGG hs₁ + hs₁) + b₁),  hs₂ = (h₁ W₂)·dinv,  AGG hs₂ ei,
    the pooled sums of relu (dinv·(AGG hs₂ + hs₂) + b₂) by graph word, and the shared last stretch.
  A buffer that a stretch does not write and that is no kernel's array keeps its contents across the boundary.
-/
import proofs.«407980_j16999480557858_3_alg».proof.Proof.Gen.KernelIdeal.Frame
import proofs.«407980_j16999480557858_3_alg».proof.Proof.KStages
import proofs.«407980_j16999480557858_3_alg».proof.Proof.Spec
import proofs.«407980_j16999480557858_3_alg».proof.Proof.KReg0
import proofs.«407980_j16999480557858_3_alg».proof.Proof.KReg1
import proofs.«407980_j16999480557858_3_alg».proof.Proof.KReg2
import proofs.«407980_j16999480557858_3_alg».proof.Proof.KReg3
import proofs.«407980_j16999480557858_3_alg».proof.Proof.LibTRefCast
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer it does not write as it found it. -/
macro "host_keep" : tactic =>
  `(tactic| (refine StableHlo.after_of_forall_not_mem _ _ (List.forall_iff_forall_mem.mp ?_)
             simp only [hostOps0, hostOps1, hostOps1_1, hostOps2, hostOps3, hostOps3_1, hostOps4, List.flatten_cons,
               List.flatten_nil, List.append_nil, List.cons_append, List.nil_append, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## The argument arrays and the three index-derived arrays, carried -/

abbrev EI : IVec S2x800000 32 := m ((c : Thread nD τ).loc main_arg1)
abbrev HS1 : FVec Ideal S50000x128 .f32 :=
  GCN.linScale (m ((c : Thread nD τ).loc main_arg0)) (m ((c : Thread nD τ).loc main_arg3)) (D2 (EI m c))
abbrev H1 : FVec Ideal S50000x128 .f32 :=
  GCN.finish (AGG (HS1 m c) (EI m c)) (HS1 m c) (D2 (EI m c)) (BROW (m ((c : Thread nD τ).loc main_arg4)))
abbrev HS2 : FVec Ideal S50000x128 .f32 :=
  GCN.linScale (H1 m c) (m ((c : Thread nD τ).loc main_arg5)) (D2 (EI m c))
abbrev PK : FVec Ideal S512x128 .f32 :=
  GCN.poolFused (AGG (HS2 m c) (EI m c)) (HS2 m c) (D2 (EI m c)) (BROW (m ((c : Thread nD τ).loc main_arg6)))
    (BCOL (m ((c : Thread nD τ).loc main_arg2)))

/-! ### Boundary 1: after the first stretch -/

theorem w1_v1 : W1 m ρ c (Proc.devRef .tc main_v1) = SRC (EI m c) := by
  show StableHlo.after hostOps0 (W0 m ρ c) (Proc.devRef .tc main_v1) = _
  after_results <;> rfl
theorem w1_v3 : W1 m ρ c (Proc.devRef .tc main_v3) = DST (EI m c) := by
  show StableHlo.after hostOps0 (W0 m ρ c) (Proc.devRef .tc main_v3) = _
  after_results <;> rfl
theorem w1_v10 : W1 m ρ c (Proc.devRef .tc main_v10) = DINV (EI m c) := by
  show StableHlo.after hostOps0 (W0 m ρ c) (Proc.devRef .tc main_v10) = _
  after_results <;> rfl
theorem w1_v11 : W1 m ρ c (Proc.devRef .tc main_v11) = D2 (EI m c) := by
  show StableHlo.after hostOps0 (W0 m ρ c) (Proc.devRef .tc main_v11) = _
  after_results <;> rfl
theorem w1_arg (b : Ref sig .tc) (hb : b = main_arg0 ∨ b = main_arg2 ∨ b = main_arg3 ∨ b = main_arg4 ∨ b = main_arg5 ∨ b = main_arg6 ∨ b = main_arg7 ∨ b = main_arg8) :
    W1 m ρ c (Proc.devRef .tc b) = m ((c : Thread nD τ).loc b) := by
  show StableHlo.after hostOps0 (W0 m ρ c) (Proc.devRef .tc b) = _
  rcases hb with rfl | rfl | rfl | rfl | rfl | rfl | rfl | rfl <;> (after_results <;> rfl)

/-! ### Boundary 2: after the first kernel -/

theorem w2_v12 : W2 m ρ c (Proc.devRef .tc main_v12) = HS1 m c := by
  refine (W2_arr m ρ c 3).trans ((reg0_final (V1 m ρ) c).trans ?_)
  show GCN.linScale (W1 m ρ c (Proc.devRef .tc main_arg0)) (W1 m ρ c (Proc.devRef .tc main_arg3)) (W1 m ρ c (Proc.devRef .tc main_v11)) = _
  rw [w1_arg m ρ c main_arg0 (by simp), w1_arg m ρ c main_arg3 (by simp), w1_v11]
theorem w2_v1 : W2 m ρ c (Proc.devRef .tc main_v1) = SRC (EI m c) := (W2_of_ne m ρ c main_v1 (by decide)).trans (w1_v1 m ρ c)
theorem w2_v3 : W2 m ρ c (Proc.devRef .tc main_v3) = DST (EI m c) := (W2_of_ne m ρ c main_v3 (by decide)).trans (w1_v3 m ρ c)
theorem w2_v10 : W2 m ρ c (Proc.devRef .tc main_v10) = DINV (EI m c) := (W2_of_ne m ρ c main_v10 (by decide)).trans (w1_v10 m ρ c)
theorem w2_arg (b : Ref sig .tc) (hb : b = main_arg2 ∨ b = main_arg4 ∨ b = main_arg5 ∨ b = main_arg6 ∨ b = main_arg7 ∨ b = main_arg8) :
    W2 m ρ c (Proc.devRef .tc b) = m ((c : Thread nD τ).loc b) := by
  rcases hb with rfl | rfl | rfl | rfl | rfl | rfl <;>
    exact (W2_of_ne m ρ c _ (by decide)).trans (w1_arg m ρ c _ (by simp))

/-! ### The transports of a called function's operations

    jnp.take is a called function; its operations move each operand and result between the value's type and the
    buffer's own along the reference's type equation.  At a literal reference the two types are one, and the
    transport is the identity. -/

theorem ofBuf_words (r : Ref sig .tc) (h1 : r.ty = (⟨S800000, .i32⟩ : BufTy)) (h2 h3) (v : IVec S800000 32)
    (w : r.ty.Contents (Elt Ideal)) (hw : HEq w v) :
    (StableHlo.TRef.of (T := ⟨S800000, .i32⟩) r h1 h2 h3).ofBuf w = v := by
  show cast _ w = v
  exact eq_of_heq ((cast_heq _ w).trans hw)
theorem ofBuf_rows (r : Ref sig .tc) (h1 : r.ty = (⟨S50000x128, .f32⟩ : BufTy)) (h2 h3) (v : FVec Ideal S50000x128 .f32)
    (w : r.ty.Contents (Elt Ideal)) (hw : HEq w v) :
    (StableHlo.TRef.of (T := ⟨S50000x128, .f32⟩) r h1 h2 h3).ofBuf w = v := by
  show cast _ w = v
  exact eq_of_heq ((cast_heq _ w).trans hw)
theorem toBuf_taken (r : Ref sig .tc) (h1 : r.ty = (⟨S800000x128, .f32⟩ : BufTy)) (h2 h3) (v : FVec Ideal S800000x128 .f32)
    (w : r.ty.Contents (Elt Ideal)) (hw : HEq v w) :
    (StableHlo.TRef.of (T := ⟨S800000x128, .f32⟩) r h1 h2 h3).toBuf v = w := by
  show cast _ v = w
  exact eq_of_heq ((cast_heq _ v).trans hw)

/-! ### Boundary 3: after jnp.take's stretch -/

set_option maxHeartbeats 4000000 in
theorem w3_v13 : W3 m ρ c (Proc.devRef .tc main_v13) = TAKE (HS1 m c) (EI m c) := by
  show StableHlo.after hostOps1 (W2 m ρ c) (Proc.devRef .tc main_v13) = _
  after_results_simp
  simp only [StableHlo.TRef.ofBuf_toBuf, StableHlo.TRef.toBuf_ofBuf]
  rw [ofBuf_words main_v1 _ _ _ (SRC (EI m c)) _ (heq_of_eq (w2_v1 m ρ c)),
      ofBuf_rows main_v12 _ _ _ (HS1 m c) _ (heq_of_eq (w2_v12 m ρ c))]
  exact toBuf_taken main_v13 _ _ _ _ _ HEq.rfl
theorem w3_keep (b : Ref sig .tc) (hb : b = main_v1 ∨ b = main_v3 ∨ b = main_v10 ∨ b = main_v12 ∨ b = main_arg2 ∨ b = main_arg4 ∨ b = main_arg5 ∨ b = main_arg6 ∨ b = main_arg7 ∨ b = main_arg8) :
    W3 m ρ c (Proc.devRef .tc b) = W2 m ρ c (Proc.devRef .tc b) := by
  rcases hb with rfl | rfl | rfl | rfl | rfl | rfl | rfl | rfl | rfl | rfl <;> host_keep

/-! ### Boundary 4: after the scatter-add's stretch -/

theorem w4_v16 : W4 m ρ c (Proc.devRef .tc main_v16) = AGG (HS1 m c) (EI m c) := by
  show StableHlo.after hostOps1_1 (W3 m ρ c) (Proc.devRef .tc main_v16) = _
  have e13 := w3_v13 m ρ c
  have e3 : W3 m ρ c (Proc.devRef .tc main_v3) = DST (EI m c) := (w3_keep m ρ c main_v3 (by simp)).trans (w2_v3 m ρ c)
  generalize W3 m ρ c = W at e13 e3 ⊢
  after_results
  rw [e13, e3]
  rfl
theorem w4_v17 : W4 m ρ c (Proc.devRef .tc main_v17) = D2 (EI m c) := by
  show StableHlo.after hostOps1_1 (W3 m ρ c) (Proc.devRef .tc main_v17) = _
  have e10 : W3 m ρ c (Proc.devRef .tc main_v10) = DINV (EI m c) := (w3_keep m ρ c main_v10 (by simp)).trans (w2_v10 m ρ c)
  generalize W3 m ρ c = W at e10 ⊢
  after_results
  rw [e10]
  rfl
theorem w4_v18 : W4 m ρ c (Proc.devRef .tc main_v18) = BROW (m ((c : Thread nD τ).loc main_arg4)) := by
  show StableHlo.after hostOps1_1 (W3 m ρ c) (Proc.devRef .tc main_v18) = _
  have e4 : W3 m ρ c (Proc.devRef .tc main_arg4) = m ((c : Thread nD τ).loc main_arg4) :=
    (w3_keep m ρ c main_arg4 (by simp)).trans (w2_arg m ρ c main_arg4 (by simp))
  generalize W3 m ρ c = W at e4 ⊢
  after_results
  rw [e4]
  rfl
theorem w4_keep (b : Ref sig .tc) (hb : b = main_v1 ∨ b = main_v3 ∨ b = main_v10 ∨ b = main_v12 ∨ b = main_arg2 ∨ b = main_arg5 ∨ b = main_arg6 ∨ b = main_arg7 ∨ b = main_arg8) :
    W4 m ρ c (Proc.devRef .tc b) = W2 m ρ c (Proc.devRef .tc b) := by
  rcases hb with rfl | rfl | rfl | rfl | rfl | rfl | rfl | rfl | rfl <;>
    exact (show StableHlo.after hostOps1_1 (W3 m ρ c) _ = W3 m ρ c _ by host_keep).trans (w3_keep m ρ c _ (by simp))

/-! ### Boundary 5: after the second kernel -/

theorem w5_v19 : W5 m ρ c (Proc.devRef .tc main_v19) = H1 m c := by
  refine (W5_arr m ρ c 4).trans ((reg1_final (V4 m ρ) c).trans ?_)
  show GCN.finish (W4 m ρ c (Proc.devRef .tc main_v16)) (W4 m ρ c (Proc.devRef .tc main_v12)) (W4 m ρ c (Proc.devRef .tc main_v17)) (W4 m ρ c (Proc.devRef .tc main_v18)) = _
  rw [w4_v16, w4_keep m ρ c main_v12 (by simp), w2_v12, w4_v17, w4_v18]
theorem w5_keep (b : Ref sig .tc) (hb : b = main_v1 ∨ b = main_v3 ∨ b = main_v10 ∨ b = main_arg2 ∨ b = main_arg5 ∨ b = main_arg6 ∨ b = main_arg7 ∨ b = main_arg8) :
    W5 m ρ c (Proc.devRef .tc b) = W2 m ρ c (Proc.devRef .tc b) := by
  rcases hb with rfl | rfl | rfl | rfl | rfl | rfl | rfl | rfl <;>
    exact (W5_of_ne m ρ c _ (by decide)).trans (w4_keep m ρ c _ (by simp))

/-! ### Boundary 6: after the reshape before the third kernel -/

theorem w6_v20 : W6 m ρ c (Proc.devRef .tc main_v20) = D2 (EI m c) := by
  show StableHlo.after hostOps2 (W5 m ρ c) (Proc.devRef .tc main_v20) = _
  after_results
  rw [w5_keep m ρ c main_v10 (by simp), w2_v10]
  rfl
theorem w6_v19 : W6 m ρ c (Proc.devRef .tc main_v19) = H1 m c :=
  (show StableHlo.after hostOps2 (W5 m ρ c) _ = W5 m ρ c _ by host_keep).trans (w5_v19 m ρ c)
theorem w6_keep (b : Ref sig .tc) (hb : b = main_v1 ∨ b = main_v3 ∨ b = main_v10 ∨ b = main_arg2 ∨ b = main_arg5 ∨ b = main_arg6 ∨ b = main_arg7 ∨ b = main_arg8) :
    W6 m ρ c (Proc.devRef .tc b) = W2 m ρ c (Proc.devRef .tc b) := by
  rcases hb with rfl | rfl | rfl | rfl | rfl | rfl | rfl | rfl <;>
    exact (show StableHlo.after hostOps2 (W5 m ρ c) _ = W5 m ρ c _ by host_keep).trans (w5_keep m ρ c _ (by simp))

/-! ### Boundary 7: after the third kernel -/

theorem w7_v21 : W7 m ρ c (Proc.devRef .tc main_v21) = HS2 m c := by
  refine (W7_arr m ρ c 3).trans ((reg2_final (V6 m ρ) c).trans ?_)
  show GCN.linScale (W6 m ρ c (Proc.devRef .tc main_v19)) (W6 m ρ c (Proc.devRef .tc main_arg5)) (W6 m ρ c (Proc.devRef .tc main_v20)) = _
  rw [w6_v19, w6_keep m ρ c main_arg5 (by simp), w2_arg m ρ c main_arg5 (by simp), w6_v20]
theorem w7_keep (b : Ref sig .tc) (hb : b = main_v1 ∨ b = main_v3 ∨ b = main_v10 ∨ b = main_arg2 ∨ b = main_arg6 ∨ b = main_arg7 ∨ b = main_arg8) :
    W7 m ρ c (Proc.devRef .tc b) = W2 m ρ c (Proc.devRef .tc b) := by
  rcases hb with rfl | rfl | rfl | rfl | rfl | rfl | rfl <;>
    exact (W7_of_ne m ρ c _ (by decide)).trans (w6_keep m ρ c _ (by simp))

/-! ### Boundary 8: after the second take -/

set_option maxHeartbeats 4000000 in
theorem w8_v22 : W8 m ρ c (Proc.devRef .tc main_v22) = TAKE (HS2 m c) (EI m c) := by
  show StableHlo.after hostOps3 (W7 m ρ c) (Proc.devRef .tc main_v22) = _
  after_results_simp
  simp only [StableHlo.TRef.ofBuf_toBuf, StableHlo.TRef.toBuf_ofBuf]
  rw [ofBuf_words main_v1 _ _ _ (SRC (EI m c)) _ (heq_of_eq ((w7_keep m ρ c main_v1 (by simp)).trans (w2_v1 m ρ c))),
      ofBuf_rows main_v21 _ _ _ (HS2 m c) _ (heq_of_eq (w7_v21 m ρ c))]
  exact toBuf_taken main_v22 _ _ _ _ _ HEq.rfl
theorem w8_v21 : W8 m ρ c (Proc.devRef .tc main_v21) = HS2 m c :=
  (show StableHlo.after hostOps3 (W7 m ρ c) _ = W7 m ρ c _ by host_keep).trans (w7_v21 m ρ c)
theorem w8_keep (b : Ref sig .tc) (hb : b = main_v3 ∨ b = main_v10 ∨ b = main_arg2 ∨ b = main_arg6 ∨ b = main_arg7 ∨ b = main_arg8) :
    W8 m ρ c (Proc.devRef .tc b) = W2 m ρ c (Proc.devRef .tc b) := by
  rcases hb with rfl | rfl | rfl | rfl | rfl | rfl <;>
    exact (show StableHlo.after hostOps3 (W7 m ρ c) _ = W7 m ρ c _ by host_keep).trans (w7_keep m ρ c _ (by simp))

/-! ### Boundary 9: after the second scatter-add's stretch -/

theorem w9_v25 : W9 m ρ c (Proc.devRef .tc main_v25) = AGG (HS2 m c) (EI m c) := by
  show StableHlo.after hostOps3_1 (W8 m ρ c) (Proc.devRef .tc main_v25) = _
  have e22 := w8_v22 m ρ c
  have e3 : W8 m ρ c (Proc.devRef .tc main_v3) = DST (EI m c) := (w8_keep m ρ c main_v3 (by simp)).trans (w2_v3 m ρ c)
  generalize W8 m ρ c = W at e22 e3 ⊢
  after_results
  rw [e22, e3]
  rfl
theorem w9_v21 : W9 m ρ c (Proc.devRef .tc main_v21) = HS2 m c :=
  (show StableHlo.after hostOps3_1 (W8 m ρ c) _ = W8 m ρ c _ by host_keep).trans (w8_v21 m ρ c)
theorem w9_v26 : W9 m ρ c (Proc.devRef .tc main_v26) = D2 (EI m c) := by
  show StableHlo.after hostOps3_1 (W8 m ρ c) (Proc.devRef .tc main_v26) = _
  have e10 : W8 m ρ c (Proc.devRef .tc main_v10) = DINV (EI m c) := (w8_keep m ρ c main_v10 (by simp)).trans (w2_v10 m ρ c)
  generalize W8 m ρ c = W at e10 ⊢
  after_results
  rw [e10]
  rfl
theorem w9_v27 : W9 m ρ c (Proc.devRef .tc main_v27) = BROW (m ((c : Thread nD τ).loc main_arg6)) := by
  show StableHlo.after hostOps3_1 (W8 m ρ c) (Proc.devRef .tc main_v27) = _
  have e6 : W8 m ρ c (Proc.devRef .tc main_arg6) = m ((c : Thread nD τ).loc main_arg6) :=
    (w8_keep m ρ c main_arg6 (by simp)).trans (w2_arg m ρ c main_arg6 (by simp))
  generalize W8 m ρ c = W at e6 ⊢
  after_results
  rw [e6]
  rfl
theorem w9_v28 : W9 m ρ c (Proc.devRef .tc main_v28) = BCOL (m ((c : Thread nD τ).loc main_arg2)) := by
  show StableHlo.after hostOps3_1 (W8 m ρ c) (Proc.devRef .tc main_v28) = _
  have e2 : W8 m ρ c (Proc.devRef .tc main_arg2) = m ((c : Thread nD τ).loc main_arg2) :=
    (w8_keep m ρ c main_arg2 (by simp)).trans (w2_arg m ρ c main_arg2 (by simp))
  generalize W8 m ρ c = W at e2 ⊢
  after_results
  rw [e2]
  rfl
theorem w9_keep (b : Ref sig .tc) (hb : b = main_arg2 ∨ b = main_arg7 ∨ b = main_arg8) :
    W9 m ρ c (Proc.devRef .tc b) = W2 m ρ c (Proc.devRef .tc b) := by
  rcases hb with rfl | rfl | rfl <;>
    exact (show StableHlo.after hostOps3_1 (W8 m ρ c) _ = W8 m ρ c _ by host_keep).trans (w8_keep m ρ c _ (by simp))

/-! ### Boundary 10: after the fourth kernel -/

theorem w10_v29 : W10 m ρ c (Proc.devRef .tc main_v29) = PK m c := by
  refine (W10_arr m ρ c 5).trans ((reg3_final (V9 m ρ) c).trans ?_)
  show GCN.poolFused (W9 m ρ c (Proc.devRef .tc main_v25)) (W9 m ρ c (Proc.devRef .tc main_v21)) (W9 m ρ c (Proc.devRef .tc main_v26)) (W9 m ρ c (Proc.devRef .tc main_v27)) (W9 m ρ c (Proc.devRef .tc main_v28)) = _
  rw [w9_v25, w9_v21, w9_v26, w9_v27, w9_v28]
theorem w10_keep (b : Ref sig .tc) (hb : b = main_arg2 ∨ b = main_arg7 ∨ b = main_arg8) :
    W10 m ρ c (Proc.devRef .tc b) = m ((c : Thread nD τ).loc b) := by
  rcases hb with rfl | rfl | rfl <;>
    exact (W10_of_ne m ρ c _ (by decide)).trans ((w9_keep m ρ c _ (by simp)).trans (w2_arg m ρ c _ (by simp)))

/-! ### The return: after the last stretch -/

set_option maxHeartbeats 4000000 in
/-- The result buffer at the program's return: the last stretch of the pooled sums. -/
theorem w11_v42 : W11 m ρ c (Proc.devRef .tc main_v42)
    = TAIL (PK m c) (m ((c : Thread nD τ).loc main_arg2)) (m ((c : Thread nD τ).loc main_arg7)) (m ((c : Thread nD τ).loc main_arg8)) := by
  show StableHlo.after hostOps4 (W10 m ρ c) (Proc.devRef .tc main_v42) = _
  after_results_simp
  rw [w10_v29, w10_keep m ρ c main_arg2 (by simp), w10_keep m ρ c main_arg7 (by simp), w10_keep m ρ c main_arg8 (by simp)]
  rfl

end Cert.KernelIdeal.KV

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.KLayer.lean ====
/- The kernel's host stretches read at an index, and one whole layer of the kernel as the specification's `convK`. -/
import proofs.«407980_j16999480557858_3_alg».proof.Proof.KStages
import proofs.«407980_j16999480557858_3_alg».proof.Proof.Spec
import proofs.«407980_j16999480557858_3_alg».proof.Proof.LibGatherScatter
import proofs.«407980_j16999480557858_3_alg».proof.Proof.LibKeepdimsColumn
import proofs.«407980_j16999480557858_3_alg».proof.Proof.LibReduceAnd
import Idealize.ShloMosaic.Lib.Pipeline.Value
import Idealize.ShloMosaic.Lib.ValueIdx
import Idealize.ShloMosaic.PureOps.Ideal.Laws

noncomputable section

open scoped BigOperators

namespace Cert.KernelIdeal.KV

open Cert.KernelIdeal Cert.KernelIdeal.Gen Idealize.ShloMosaic Idealize.ShloMosaic.TcCoe Idealize.ShloMosaic.ValueIdx

/-- A rank-0 array broadcast to any shape reads its one element everywhere. -/
private theorem bcast0_apply {α : Type} {t : Shape} (dims : Fin S_.rank → Fin t.rank) (h : S_.BroadcastsInDim t dims)
    (v : S_.Idx → α) (j : t.Idx) : broadcastInDim t dims h v j = v ix0 :=
  broadcastInDim_apply dims h v j ix0 (fun a => a.elim0)

/-- A vector laid as a column reads, at `(e, 0)`, the vector at `e`. -/
private theorem bcol_apply {α : Type} (v : S800000.Idx → α) (e : Fin 800000) :
    broadcastInDim S800000x1 ![0] bcast_S800000_S800000x1_0 v (ix2 e 0) = v (ix1 e) :=
  broadcastInDim_apply _ bcast_S800000_S800000x1_0 v (ix2 e 0) (ix1 e) (fun a => match a with
    | ⟨0, _⟩ => by show e.val = if (800000 : Nat) = 1 then 0 else e.val; rw [if_neg (by decide)])

/-- The destination row read at edge `e`. -/
private theorem DST_apply (ei : IVec S2x800000 32) (e : Fin 800000) : DST ei (ix1 e) = ei (ix2 1 e) := by
  unfold DST
  refine (shapeCast_apply _ shapeCasts_S1x800000_S800000 (ix1 e) (ix2 0 e) ?_).trans ?_
  · rw [Shape.rowMajor_val_two, Shape.rowMajor_val_one]
    show 0 * 800000 + e.val = e.val
    omega
  · exact extractStridedSlice_apply ![1, 0] ei slices_S2x800000_S1x800000_1_0 (ix2 0 e) (ix2 1 e) (fun a => match a with
      | ⟨0, _⟩ => rfl
      | ⟨1, _⟩ => by show e.val = 0 + e.val; omega)

/-- The source row read at edge `e`. -/
private theorem SRC_apply (ei : IVec S2x800000 32) (e : Fin 800000) : SRC ei (ix1 e) = ei (ix2 0 e) := by
  unfold SRC
  refine (shapeCast_apply _ shapeCasts_S1x800000_S800000 (ix1 e) (ix2 0 e) ?_).trans ?_
  · rw [Shape.rowMajor_val_two, Shape.rowMajor_val_one]
    show 0 * 800000 + e.val = e.val
    omega
  · exact extractStridedSlice_apply ![0, 0] ei slices_S2x800000_S1x800000_0_0 (ix2 0 e) (ix2 0 e) (fun a => match a with
      | ⟨0, _⟩ => rfl
      | ⟨1, _⟩ => by show e.val = 0 + e.val; omega)

/-- The host's reciprocal square root at an index is the extended reals' of the element. -/
private theorem hostRsqrt_apply {s : Shape} {φ : FTy} (x : FVec Ideal s φ) (i : s.Idx) :
    Host.rsqrt x i = Ideal.rsqrt (x i) := rfl

/-- The edges whose destination word, read through the index column, is `n`. -/
private theorem dstFilter_eq (ei : IVec S2x800000 32) (n : Fin 50000) :
    (Finset.univ.filter fun j : Fin 800000 =>
      (broadcastInDim S800000x1 ![0] bcast_S800000_S800000x1_0 (DST ei) (ix2 j 0)).toInt = (n.val : Int))
      = GCN.edgesInto ei n := by
  unfold GCN.edgesInto
  exact Finset.filter_congr fun e _ => by rw [bcol_apply, DST_apply]

/-- An integer comparison at an index compares the words. -/
private theorem cmpiAt {s : Shape} {w : Nat} (p : CmpIPredicate) (a b : IVec s w) (i : s.Idx) :
    cmpi p a b i = IntOp.cmpi p (a i) (b i) := rfl

/-- A bitwise and at an index is the words' and. -/
private theorem andiAt {s : Shape} {w : Nat} (a b : IVec s w) (i : s.Idx) : andi a b i = IntOp.andi (a i) (b i) := rfl

/-- A splat integer constant reads its word. -/
private theorem constIAt {s : Shape} {w : Nat} (b : BitVec w) (i : s.Idx) : constantI s w b i = b := rfl

/-- The upper bound `49999`, broadcast twice, reads `49999` everywhere. -/
private theorem hiAt (i : S800000x1.Idx) :
    broadcastInDim S800000x1 ![0, 1] bcast_S1x1_S800000x1_0_1
      (broadcastInDim S1x1 ![1] bcast_S1_S1x1_1 (constantI S1 32 49999#32)) i = 49999#32 := rfl

/-- A word that is not negative is left as it is by the wrap of negative words. -/
private theorem NORM_apply_of_nonneg (v : IVec S800000 32) (e : Fin 800000) (h : 0 ≤ (v (ix1 e)).toInt) :
    NORM v (ix1 e) = v (ix1 e) := by
  unfold NORM
  rw [select_apply, cmpiAt, bcast0_apply, constIAt]
  have hc : ¬ IntOp.cmpi .slt (v (ix1 e)) 0#32 = 1#1 := by
    rw [IntOp.cmpi_slt]
    have h0 : (0#32 : BitVec 32).toInt = 0 := by decide
    omega
  exact if_neg hc

/-- Where every edge word is a node number, the gather's index column reads the source word. -/
private theorem TIDX_apply (ei : IVec S2x800000 32) (hr : GCN.InRange ei) (e : Fin 800000) :
    TIDX ei (ix2 e 0) = ei (ix2 0 e) := by
  unfold TIDX
  rw [bcol_apply, NORM_apply_of_nonneg _ _ (by rw [SRC_apply]; exact (hr 0 e).1), SRC_apply]

/-- Where every edge word is a node number, every edge's mask bit is 1. -/
private theorem TMASK_apply (ei : IVec S2x800000 32) (hr : GCN.InRange ei) (e : Fin 800000) :
    TMASK ei (ix1 e) = 1#1 := by
  unfold TMASK
  refine Host.reduce_andi_of_all _ _ reducesTo_S800000x1_S800000_d1 h_S_ (ix1 e) rfl fun i _ => ?_
  obtain ⟨e', u, rfl⟩ : ∃ (e' : Fin 800000) (u : Fin 1), i = ix2 e' u := ⟨i 0, i 1, eq_ix2 i⟩
  obtain rfl : u = 0 := Subsingleton.elim _ _
  rw [andiAt, cmpiAt, cmpiAt, TIDX_apply ei hr, bcast0_apply, constIAt, hiAt]
  have h0 : (0#32 : BitVec 32).toInt = 0 := by decide
  have h1 : (49999#32 : BitVec 32).toInt = 49999 := by decide
  have hw := hr 0 e'
  exact IntOp.andi_eq_one.mpr ⟨IntOp.cmpi_sge.mpr (by omega), IntOp.cmpi_sle.mpr (by omega)⟩

/-- A vector laid along the rows of a rectangle reads, at `(e, d)`, the vector at `e`. -/
private theorem brows_apply {α : Type} (v : S800000.Idx → α) (e : Fin 800000) (d : Fin 128) :
    broadcastInDim S800000x128 ![0] bcast_S800000_S800000x128_0 v (ix2 e d) = v (ix1 e) :=
  broadcastInDim_apply _ bcast_S800000_S800000x128_0 v (ix2 e d) (ix1 e) (fun a => match a with
    | ⟨0, _⟩ => by show e.val = if (800000 : Nat) = 1 then 0 else e.val; rw [if_neg (by decide)])

/-- Where every edge word is a node number, the taken row of edge `e` is the source node's row. -/
private theorem TAKE_apply (hs : FVec Ideal S50000x128 .f32) (ei : IVec S2x800000 32) (hr : GCN.InRange ei)
    (e : Fin 800000) (d : Fin 128) : TAKE hs ei (ix2 e d) = hs (ix2 (GCN.node (ei (ix2 0 e))) d) := by
  unfold TAKE
  have hg : gather_S50000x128_S800000x1_S800000x128_1_0_n_n_0_1_1128
      = GatherScatter.rowGatherDims 50000 128 800000 gather_S50000x128_S800000x1_S800000x128_1_0_n_n_0_1_1128_wf := rfl
  rw [select_apply, brows_apply, TMASK_apply ei hr, select_one, hg,
    GatherScatter.rowGather_apply (by decide)]
  refine congrArg (fun k => hs (ix2 k d)) (Fin.ext ?_)
  show min (TIDX ei (ix2 e 0)).toInt.toNat (50000 - 1) = min (ei (ix2 0 e)).toInt.toNat 49999
  rw [TIDX_apply ei hr]

/-- The column of inverse root degrees at row `n`. -/
theorem D2_apply (ei : IVec S2x800000 32) (n : Fin 50000) : D2 ei (ix2 n 0) = GCN.dinv ei n := by
  unfold D2
  rw [KeepdimsColumn.shapeCast_a_a1_apply]
  unfold DINV
  have hs : scatter_S50000_S800000x1_S800000_n_0_0_1
      = GatherScatter.vecScatterDims 50000 800000 scatter_S50000_S800000x1_S800000_n_0_0_1_wf := rfl
  rw [hostRsqrt_apply, addf_apply, hs, GatherScatter.vecScatterAdd_apply, dstFilter_eq]
  simp only [bcast0_apply, constant_apply]
  rfl

/-- A bias row reads the bias vector. -/
theorem BROW_apply (b : FVec Ideal S128 .f32) (d : Fin 128) : BROW b (ix2 0 d) = b (ix1 d) := by
  unfold BROW
  refine shapeCast_apply b shapeCasts_S128_S1x128 (ix2 0 d) (ix1 d) ?_
  rw [Shape.rowMajor_val_two, Shape.rowMajor_val_one]
  show d.val = 0 * 128 + d.val
  omega

/-- The column of graph words reads the vector of graph words. -/
theorem BCOL_apply (bt : IVec S50000 32) (n : Fin 50000) : BCOL bt (ix2 n 0) = bt (ix1 n) :=
  KeepdimsColumn.shapeCast_a_a1_apply bt shapeCasts_S50000_S50000x1 n 0

/-- Where every edge word is a node number, the aggregated rows are the sums over the edges into `n` of the
    source's row. -/
theorem AGG_apply (hs : FVec Ideal S50000x128 .f32) (ei : IVec S2x800000 32) (hr : GCN.InRange ei)
    (n : Fin 50000) (d : Fin 128) :
    AGG hs ei (ix2 n d) = GCN.zero + ∑ e ∈ GCN.edgesInto ei n, hs (ix2 (GCN.node (ei (ix2 0 e))) d) := by
  unfold AGG
  have hsc : scatter_S50000x128_S800000x1_S800000x128_1_0_0_1
      = GatherScatter.rowScatterDims 50000 128 800000 scatter_S50000x128_S800000x1_S800000x128_1_0_0_1_wf := rfl
  rw [hsc, GatherScatter.rowScatterAdd_apply, dstFilter_eq, bcast0_apply, constant_apply,
    Finset.sum_congr rfl fun e _ => TAKE_apply hs ei hr e d]

/-- One layer as the kernel runs it — scale, aggregate, finish — is `convK`. -/
theorem layerK_eq (x : FVec Ideal S50000x128 .f32) (W : FVec Ideal S128x128 .f32) (b : FVec Ideal S128 .f32)
    (ei : IVec S2x800000 32) (hr : GCN.InRange ei) :
    GCN.finish (AGG (GCN.linScale x W (D2 ei)) ei) (GCN.linScale x W (D2 ei)) (D2 ei) (BROW b)
      = GCN.arr2 (GCN.convK x W b ei) := by
  -- the scaled features at `(m, d)` are `(x W)[m, d] · dinv m`
  have hls : ∀ (m : Fin 50000) (d : Fin 128), GCN.linScale x W (D2 ei) (ix2 m d) = GCN.hsc x W ei m d := by
    intro m d
    unfold GCN.linScale GCN.hsc GCN.lin
    rw [GCN.arr2_ix2, D2_apply]
  funext i
  obtain ⟨n, d, rfl⟩ : ∃ (n : Fin 50000) (d : Fin 128), i = ix2 n d := ⟨i 0, i 1, eq_ix2 i⟩
  unfold GCN.finish GCN.convK
  rw [GCN.arr2_ix2, GCN.arr2_ix2, AGG_apply _ ei hr, D2_apply, BROW_apply]
  simp only [hls]

end Cert.KernelIdeal.KV

end
-- ==== Proof.ConvLaw.lean ====
/- One convolution layer: the kernel's arrangement equals the reference's wherever every edge word is a node number.
   `dinv n` is the inverse root of a count plus one, a non-negative real, so it distributes over any sum of
   extended reals; nothing is asked of the features. -/
import proofs.«407980_j16999480557858_3_alg».proof.Proof.Spec
import Mathlib.Data.EReal.Operations

noncomputable section

open scoped BigOperators

namespace Cert.GCN

open Idealize.ShloMosaic Idealize.ShloMosaic.ValueIdx

/-- The word `0x3F800000` denotes the number one. -/
private theorem one_eq : one = 1 := by
  show Ideal.ofBits .f32 0x3F800000#32 = 1
  simp [Ideal.ofBits, Ideal.ieee, -EReal.coe_mul]; norm_num

/-- The word `0x00000000` denotes the number zero. -/
private theorem zero_eq : zero = 0 := by
  show Ideal.ofBits .f32 0x00000000#32 = 0
  simp [Ideal.ofBits, Ideal.ieee]

/-- A finite sum of ones is the cardinality. -/
private theorem sum_one_eq_card {ι : Type*} (s : Finset ι) :
    (∑ _e ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The degree is the real number `card + 1`. -/
private theorem deg_eq (ei : IVec SE2 32) (n : Fin 50000) :
    deg ei n = ((((edgesInto ei n).card : ℝ) + 1 : ℝ) : EReal) := by
  unfold deg
  rw [one_eq, zero_eq, zero_add, sum_one_eq_card]
  push_cast
  rfl

/-- The inverse root of the degree is a non-negative real. -/
private theorem dinv_real (ei : IVec SE2 32) (n : Fin 50000) :
    ∃ r : ℝ, 0 ≤ r ∧ dinv ei n = (r : EReal) := by
  refine ⟨(Real.sqrt (((edgesInto ei n).card : ℝ) + 1))⁻¹, by positivity, ?_⟩
  unfold dinv
  rw [deg_eq, Ideal.rsqrt_coe]
  have hpos : (0 : ℝ) < ((edgesInto ei n).card : ℝ) + 1 := by positivity
  rw [if_neg (not_lt.mpr hpos.le), if_neg hpos.ne']

/-- The destination word of an edge into `n` reads node `n`. -/
private theorem node_dst (ei : IVec SE2 32) (n : Fin 50000) (e : Fin 800000) (he : e ∈ edgesInto ei n) :
    node (ei (ix2 1 e)) = n := by
  have h : (ei (ix2 1 e)).toInt = (n.val : Int) := (Finset.mem_filter.mp he).2
  apply Fin.ext
  show min (ei (ix2 1 e)).toInt.toNat 49999 = n.val
  rw [h, Int.toNat_natCast]
  have := n.isLt
  omega

theorem conv_eq (x : SNH.Idx → EReal) (W : SHH.Idx → EReal) (b : SH.Idx → EReal) (ei : IVec SE2 32) (hr : InRange ei)
    (n : Fin 50000) (d : Fin 128) : convK x W b ei n d = convR x W b ei n d := by
  obtain ⟨r, hr0, hrn⟩ := dinv_real ei n
  have hdist : ∀ y z : EReal, dinv ei n * (y + z) = dinv ei n * y + dinv ei n * z := by
    intro y z
    rw [hrn]
    exact EReal.left_distrib_of_nonneg_of_ne_top (EReal.coe_nonneg.mpr hr0) (EReal.coe_ne_top r) y z
  have hsum : ∀ (s : Finset (Fin 800000)) (f : Fin 800000 → EReal),
      dinv ei n * ∑ e ∈ s, f e = ∑ e ∈ s, dinv ei n * f e := by
    intro s f
    induction s using Finset.induction_on with
    | empty => simp
    | insert a s ha ih => rw [Finset.sum_insert ha, Finset.sum_insert ha, hdist, ih]
  have key : dinv ei n * ((zero + ∑ e ∈ edgesInto ei n, hsc x W ei (node (ei (ix2 0 e))) d) + hsc x W ei n d)
      = ((zero + ∑ e ∈ edgesInto ei n,
            lin x W (node (ei (ix2 0 e))) d * (dinv ei (node (ei (ix2 0 e))) * dinv ei (node (ei (ix2 1 e)))))
          + lin x W n d * (dinv ei n * dinv ei n)) := by
    rw [zero_eq, zero_add, zero_add, hdist, hsum]
    have h2 : dinv ei n * hsc x W ei n d = lin x W n d * (dinv ei n * dinv ei n) := by
      unfold hsc
      rw [mul_comm (dinv ei n), mul_assoc]
    have h1 : ∑ e ∈ edgesInto ei n, dinv ei n * hsc x W ei (node (ei (ix2 0 e))) d
        = ∑ e ∈ edgesInto ei n,
            lin x W (node (ei (ix2 0 e))) d * (dinv ei (node (ei (ix2 0 e))) * dinv ei (node (ei (ix2 1 e)))) := by
      apply Finset.sum_congr rfl
      intro e he
      rw [node_dst ei n e he]
      unfold hsc
      rw [mul_comm (dinv ei n), mul_assoc]
    rw [h1, h2]
  unfold convK convR
  rw [key]

end Cert.GCN

end
-- ==== Proof.PoolLaw.lean ====
/- Pooling: adding the 25 blocks' membership-weighted row sums one after the other is the one sum over the rows
   whose graph word is `g`. -/
import proofs.«407980_j16999480557858_3_alg».proof.Proof.Spec
import Idealize.ShloMosaic.PureOps.Ideal.Laws
import Mathlib.Data.EReal.Operations
import Mathlib.Algebra.BigOperators.Fin
import Mathlib.Logic.Equiv.Fin.Basic

noncomputable section

open scoped BigOperators

namespace Cert.GCN

open Idealize.ShloMosaic Idealize.ShloMosaic.ValueIdx

/-- The float word `0.0` is the number zero. -/
private theorem zero_eq : zero = 0 := Ideal.ofBits_zero_f32

/-- A 32-bit word equals the word of a number below 512 exactly when, read signed, it is that number. -/
private theorem word_eq_iff (w : BitVec 32) (g : Fin 512) :
    w = BitVec.ofNat 32 g.val ↔ w.toInt = (g.val : Int) := by
  have hg : g.val < 512 := g.isLt
  have hb : (BitVec.ofNat 32 g.val).toInt = (g.val : Int) := by
    rw [BitVec.toInt_ofNat', Int.bmod_def]
    omega
  constructor
  · intro hw
    rw [hw, hb]
  · intro hw
    apply BitVec.eq_of_toInt_eq
    rw [hw, hb]

/-- The membership weight is `1` or `0`, and `1 * v = v`, `0 * v = 0` on the extended reals: the product keeps
    the row or discards it. -/
private theorem member_mul (w : BitVec 32) (g : Fin 512) (v : EReal) :
    member w g * v = if w.toInt = (g.val : Int) then v else 0 := by
  unfold member
  by_cases hw : w.toInt = (g.val : Int)
  · rw [if_pos ((word_eq_iff w g).mpr hw), if_pos hw, EReal.coe_one, one_mul]
  · rw [if_neg (fun h => hw ((word_eq_iff w g).mp h)), if_neg hw, EReal.coe_zero, zero_mul]

/-- Block `s`'s contribution, as a function of a bare number (zero past the last block). -/
private def blk (h : SNH.Idx → EReal) (bw : Fin 50000 → BitVec 32) (g : Fin 512) (d : Fin 128) (s : ℕ) : EReal :=
  if hs : s < 25 then poolBlock h bw ⟨s, hs⟩ g d else 0

/-- The accumulator after block `t` is the sum of the blocks `0 … t`: addition on the extended reals is
    associative and `0` is neutral. -/
private theorem poolAcc_eq (h : SNH.Idx → EReal) (bw : Fin 50000 → BitVec 32) (g : Fin 512) (d : Fin 128) :
    ∀ (t : ℕ) (ht : t < 25), poolAcc h bw g d t ht = ∑ s ∈ Finset.range (t + 1), blk h bw g d s
  | 0, ht => by
      rw [poolAcc, Finset.sum_range_one, blk, dif_pos ht, zero_eq, zero_add]
  | t + 1, ht => by
      rw [poolAcc, poolAcc_eq h bw g d t (by omega), Finset.sum_range_succ _ (t + 1)]
      congr 1
      rw [blk, dif_pos ht]

/-- Summing block by block, 2000 rows at a time, is summing over all 50000 rows: `n ↦ (n / 2000, n % 2000)` is a
    bijection. -/
private theorem sum_blocks (F : Fin 50000 → EReal) :
    ∑ t : Fin 25, ∑ r : Fin 2000, F ⟨2000 * t.val + r.val, by omega⟩ = ∑ n : Fin 50000, F n := by
  rw [← Finset.sum_product', Finset.univ_product_univ]
  refine Fintype.sum_equiv (finProdFinEquiv (m := 25) (n := 2000)) _ _ (fun x => ?_)
  congr 1
  apply Fin.ext
  simp only [finProdFinEquiv, Equiv.coe_fn_mk]
  omega

theorem pool_eq (h : SNH.Idx → EReal) (bw : Fin 50000 → BitVec 32) (g : Fin 512) (d : Fin 128) :
    poolK h bw g d = poolR h bw g d := by
  unfold poolK poolR
  rw [poolAcc_eq h bw g d 24 (by omega), ← Fin.sum_univ_eq_sum_range (fun s => blk h bw g d s) 25,
    zero_eq, zero_add, Finset.sum_filter]
  have hb : ∀ s : Fin 25, blk h bw g d s.val
      = ∑ r : Fin 2000, (fun n : Fin 50000 => if (bw n).toInt = (g.val : Int) then h (ix2 n d) else 0)
          ⟨2000 * s.val + r.val, by omega⟩ := by
    intro s
    rw [blk, dif_pos s.isLt]
    unfold poolBlock
    refine Finset.sum_congr rfl (fun r _ => ?_)
    exact member_mul _ g _
  rw [Finset.sum_congr rfl (fun s _ => hb s)]
  exact sum_blocks (fun n : Fin 50000 => if (bw n).toInt = (g.val : Int) then h (ix2 n d) else 0)

end Cert.GCN

end
-- ==== Proof.RefValue.lean ====
/- The reference's run read back: its result is the shared last stretch of the pooled sums of its second layer, and
   each of its layers, read at an index where every edge word is a node number, is the specification's `convR`. -/
import proofs.«407980_j16999480557858_3_alg».proof.Proof.Gen.ReferenceIdeal.Run
import proofs.«407980_j16999480557858_3_alg».proof.Proof.Gen.ReferenceIdeal.Read
import proofs.«407980_j16999480557858_3_alg».proof.Proof.Spec
import proofs.«407980_j16999480557858_3_alg».proof.Proof.LibGatherScatter
import proofs.«407980_j16999480557858_3_alg».proof.Proof.LibKeepdimsColumn
import proofs.«407980_j16999480557858_3_alg».proof.Proof.LibTRefCast
import Idealize.ShloMosaic.Lib.Pipeline.Value
import Idealize.ShloMosaic.Lib.ValueIdx
import Idealize.ShloMosaic.PureOps.Ideal.Laws

noncomputable section

open scoped BigOperators

namespace Cert.ReferenceIdeal.RV

open Cert.ReferenceIdeal Cert.ReferenceIdeal.Gen Idealize.ShloMosaic Idealize.ShloMosaic.TcCoe Idealize.SL.Sem Idealize.ShloMosaic.ValueIdx

/-- The last stretch: pooled sums over max(count, 1), times Wl, plus bl. -/
def TAIL (p : FVec Ideal S512x128 .f32) (bt : IVec S50000 32) (wl : FVec Ideal S128x1 .f32) (bl : FVec Ideal S1 .f32) :
    FVec Ideal S512x1 .f32 :=
  addf
    (Host.dotGeneral dot_S512x128_S128x1_S512x1_1_0_0_1_n_n none
      (Host.divf p
        (broadcastInDim S512x128 ![0, 1] bcast_S512x1_S512x128_0_1
          (broadcastInDim S512x1 ![0] bcast_S512_S512x1_0
            (maximumf
              (Host.scatterAdd scatter_S512_S50000x1_S50000_n_0_0_1
                (broadcastInDim S512 ![] bcast_S_S512 (constant S_ .f32 0x00000000#32))
                (broadcastInDim S50000x1 ![0] bcast_S50000_S50000x1_0 bt)
                (broadcastInDim S50000 ![] bcast_S_S50000 (constant S_ .f32 0x3F800000#32)))
              (broadcastInDim S512 ![] bcast_S_S512 (constant S_ .f32 0x3F800000#32))))))
      wl)
    (broadcastInDim S512x1 ![0, 1] bcast_S1x1_S512x1_0_1 (broadcastInDim S1x1 ![1] bcast_S1_S1x1_1 bl))

/-- The rows of `h` added into their graph's row. -/
def POOLS (h : FVec Ideal S50000x128 .f32) (bt : IVec S50000 32) : FVec Ideal S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 bt) h

/-- Row 0 of the edge array as a vector: the source words. -/
def SRC (ei : IVec S2x800000 32) : IVec S800000 32 :=
  shapeCast _ (extractStridedSlice S1x800000 ![0, 0] ei slices_S2x800000_S1x800000_0_0) shapeCasts_S1x800000_S800000

/-- Row 1 of the edge array as a vector: the destination words. -/
def DST (ei : IVec S2x800000 32) : IVec S800000 32 :=
  shapeCast _ (extractStridedSlice S1x800000 ![1, 0] ei slices_S2x800000_S1x800000_1_0) shapeCasts_S1x800000_S800000

/-- A negative word moved up by 50000, any other word kept. -/
def WRAP (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

/-- A vector of words as an index column. -/
def COL (w : IVec S800000 32) : IVec S800000x1 32 :=
  broadcastInDim S800000x1 ![0] bcast_S800000_S800000x1_0 w

/-- The inverse root of one plus the number of edges into each node. -/
def DINV (ei : IVec S2x800000 32) : FVec Ideal S50000 .f32 :=
  Host.rsqrt
    (addf
      (Host.scatterAdd scatter_S50000_S800000x1_S800000_n_0_0_1
        (broadcastInDim S50000 ![] bcast_S_S50000 (constant S_ .f32 0x00000000#32))
        (COL (WRAP (DST ei)))
        (broadcastInDim S800000 ![] bcast_S_S800000 (constant S_ .f32 0x3F800000#32)))
      (broadcastInDim S50000 ![] bcast_S_S50000 (constant S_ .f32 0x3F800000#32)))

/-- The product of the features with the weights. -/
def LIN (x : FVec Ideal S50000x128 .f32) (W : FVec Ideal S128x128 .f32) : FVec Ideal S50000x128 .f32 :=
  Host.dotGeneral dot_S50000x128_S128x128_S50000x128_1_0_0_1_n_n none x W

/-- One convolution layer, composed as the program composes it. -/
def LAYER (x : FVec Ideal S50000x128 .f32) (ei : IVec S2x800000 32) (W : FVec Ideal S128x128 .f32)
    (b : FVec Ideal S128 .f32) : FVec Ideal S50000x128 .f32 :=
  maximumf
    (addf
      (addf
        (Host.scatterAdd scatter_S50000x128_S800000x1_S800000x128_1_0_0_1
          (broadcastInDim S50000x128 ![] bcast_S_S50000x128 (constant S_ .f32 0x00000000#32))
          (COL (DST ei))
          (mulf
            (Host.gather gather_S50000x128_S800000x1_S800000x128_1_0_n_n_0_1_1128 (LIN x W) (COL (WRAP (SRC ei))))
            (broadcastInDim S800000x128 ![0, 1] bcast_S800000x1_S800000x128_0_1
              (broadcastInDim S800000x1 ![0] bcast_S800000_S800000x1_0
                (mulf
                  (Host.gather gather_S50000_S800000x1_S800000_n_0_n_n_0_1_1 (DINV ei) (COL (WRAP (SRC ei))))
                  (Host.gather gather_S50000_S800000x1_S800000_n_0_n_n_0_1_1 (DINV ei) (COL (WRAP (DST ei)))))))))
        (mulf (LIN x W)
          (broadcastInDim S50000x128 ![0, 1] bcast_S50000x1_S50000x128_0_1
            (broadcastInDim S50000x1 ![0] bcast_S50000_S50000x1_0 (mulf (DINV ei) (DINV ei))))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-! ## The pieces of a layer read at an index -/

theorem SRC_apply (ei : IVec S2x800000 32) (e : Fin 800000) : SRC ei (ix1 e) = ei (ix2 0 e) := by
  unfold SRC
  refine (shapeCast_apply _ shapeCasts_S1x800000_S800000 (ix1 e) (ix2 0 e) ?_).trans ?_
  · rw [Shape.rowMajor_val_two, Shape.rowMajor_val_one]
    show 0 * 800000 + e.val = e.val
    omega
  · exact extractStridedSlice_apply ![0, 0] ei slices_S2x800000_S1x800000_0_0 (ix2 0 e) (ix2 0 e) (fun a => match a with
      | ⟨0, _⟩ => by show (0 : Nat) = 0 + 0; rfl
      | ⟨1, _⟩ => by show e.val = 0 + e.val; omega)

theorem DST_apply (ei : IVec S2x800000 32) (e : Fin 800000) : DST ei (ix1 e) = ei (ix2 1 e) := by
  unfold DST
  refine (shapeCast_apply _ shapeCasts_S1x800000_S800000 (ix1 e) (ix2 0 e) ?_).trans ?_
  · rw [Shape.rowMajor_val_two, Shape.rowMajor_val_one]
    show 0 * 800000 + e.val = e.val
    omega
  · exact extractStridedSlice_apply ![1, 0] ei slices_S2x800000_S1x800000_1_0 (ix2 0 e) (ix2 1 e) (fun a => match a with
      | ⟨0, _⟩ => by show (1 : Nat) = 1 + 0; rfl
      | ⟨1, _⟩ => by show e.val = 0 + e.val; omega)

/-- A vector of words none of which is negative is not moved. -/
theorem WRAP_eq (w : IVec S800000 32) (h : ∀ e : Fin 800000, 0 ≤ (w (ix1 e)).toInt) : WRAP w = w := by
  funext i
  obtain ⟨e, rfl⟩ : ∃ e, i = ix1 e := ⟨i 0, eq_ix1 i⟩
  show Scalar.select (IntOp.cmpi .slt (w (ix1 e)) (0#32)) _ (w (ix1 e)) = w (ix1 e)
  have hc : IntOp.cmpi .slt (w (ix1 e)) (0#32) = 0#1 := by
    have h0 : (0#32 : BitVec 32).toInt = 0 := by decide
    have hlt : (w (ix1 e)).slt (0#32) = false := by
      simp only [BitVec.slt, h0, decide_eq_false_iff_not, not_lt]
      exact h e
    show BitVec.ofBool ((w (ix1 e)).slt (0#32)) = 0#1
    rw [hlt]
    rfl
  rw [hc, select_zero]

theorem COL_apply (w : IVec S800000 32) (e : Fin 800000) : COL w (ix2 e 0) = w (ix1 e) := by
  unfold COL
  exact broadcastInDim_apply _ bcast_S800000_S800000x1_0 w (ix2 e 0) (ix1 e) (fun a => match a with
    | ⟨0, _⟩ => by show e.val = if (800000 : Nat) = 1 then 0 else e.val; rw [if_neg (by decide)])

theorem LIN_apply (x : FVec Ideal S50000x128 .f32) (W : FVec Ideal S128x128 .f32) (n : Fin 50000) (d : Fin 128) :
    LIN x W (ix2 n d) = GCN.lin x W n d := by
  show Cert.ReferenceIdeal.Read.val_main_v4 (F := Ideal) x W (ix2 n d) = _
  rw [Cert.ReferenceIdeal.Read.val_main_v4_apply]
  unfold GCN.lin
  refine Finset.sum_congr rfl fun k _ => ?_
  have el : Cert.ReferenceIdeal.Read.lidx_main_v4 (ix2 n d) k = ix2 n k := by
    funext a; match a with | ⟨0, _⟩ => rfl | ⟨1, _⟩ => rfl
  have er : Cert.ReferenceIdeal.Read.ridx_main_v4 (ix2 n d) k = ix2 k d := by
    funext a; match a with | ⟨0, _⟩ => rfl | ⟨1, _⟩ => rfl
  rw [el, er]

/-! ## The program's gather and scatter records are the index-column ones -/

theorem vecScatter_rec : scatter_S50000_S800000x1_S800000_n_0_0_1
    = GatherScatter.vecScatterDims 50000 800000 scatter_S50000_S800000x1_S800000_n_0_0_1_wf := rfl

theorem rowScatter_rec : scatter_S50000x128_S800000x1_S800000x128_1_0_0_1
    = GatherScatter.rowScatterDims 50000 128 800000 scatter_S50000x128_S800000x1_S800000x128_1_0_0_1_wf := rfl

theorem poolScatter_rec : scatter_S512x128_S50000x1_S50000x128_1_0_0_1
    = GatherScatter.rowScatterDims 512 128 50000 scatter_S512x128_S50000x1_S50000x128_1_0_0_1_wf := rfl

theorem vecGather_rec : gather_S50000_S800000x1_S800000_n_0_n_n_0_1_1
    = GatherScatter.vecGatherDims 50000 800000 gather_S50000_S800000x1_S800000_n_0_n_n_0_1_1_wf := rfl

theorem rowGather_rec : gather_S50000x128_S800000x1_S800000x128_1_0_n_n_0_1_1128
    = GatherScatter.rowGatherDims 50000 128 800000 gather_S50000x128_S800000x1_S800000x128_1_0_n_n_0_1_1128_wf := rfl

/-- The clamp a gather applies to a start word is the specification's node of that word. -/
theorem node_eq (w : BitVec 32) (h : min w.toInt.toNat (50000 - 1) < 50000) :
    (⟨min w.toInt.toNat (50000 - 1), h⟩ : Fin 50000) = GCN.node w := rfl

/-- The edges a scatter by the destination column lands on node `n` are the edges into `n`. -/
theorem landSet_eq (ei : IVec S2x800000 32) (n : Fin 50000) :
    (Finset.univ.filter fun j : Fin 800000 => (COL (DST ei) (ix2 j 0)).toInt = (n.val : Int)) = GCN.edgesInto ei n := by
  unfold GCN.edgesInto
  exact Finset.filter_congr (fun j _ => by rw [COL_apply, DST_apply])

/-- A splat of a float word reads the word's value. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b := rfl

/-- The degree's scatter at a node: the count of the edges into it, as a sum of ones. -/
theorem degScatter_apply (ei : IVec S2x800000 32) (n : Fin 50000) :
    Host.scatterAdd (F := Ideal) (φ := .f32) scatter_S50000_S800000x1_S800000_n_0_0_1
        (broadcastInDim S50000 ![] bcast_S_S50000 (constant S_ .f32 0x00000000#32))
        (COL (DST ei))
        (broadcastInDim S800000 ![] bcast_S_S800000 (constant S_ .f32 0x3F800000#32)) (ix1 n)
      = GCN.zero + ∑ _e ∈ GCN.edgesInto ei n, GCN.one := by
  rw [vecScatter_rec, GatherScatter.vecScatterAdd_apply, landSet_eq, splat_apply]
  refine congrArg (GCN.zero + ·) (Finset.sum_congr rfl fun j _ => ?_)
  exact splat_apply _ _ _

/-- The host's inverse root at an index is the extended reals' of the element. -/
theorem hostRsqrt_apply {s : Shape} (v : FVec Ideal s .f32) (i : s.Idx) : Host.rsqrt v i = Ideal.rsqrt (v i) := rfl

/-- The inverse root of the degree, at a node. -/
theorem DINV_apply (ei : IVec S2x800000 32) (hr : GCN.InRange ei) (n : Fin 50000) :
    DINV ei (ix1 n) = GCN.dinv ei n := by
  have hw : WRAP (DST ei) = DST ei := WRAP_eq _ fun e => by rw [DST_apply]; exact (hr 1 e).1
  unfold DINV
  rw [hw, hostRsqrt_apply, addf_apply, degScatter_apply, splat_apply]
  unfold GCN.dinv GCN.deg
  rfl

/-- A gather of the inverse roots by a column of node words reads the node's. -/
theorem gatherDINV_apply (ei : IVec S2x800000 32) (hr : GCN.InRange ei) (w : IVec S800000 32) (e : Fin 800000) :
    Host.gather gather_S50000_S800000x1_S800000_n_0_n_n_0_1_1 (DINV ei) (COL w) (ix1 e) = GCN.dinv ei (GCN.node (w (ix1 e))) := by
  rw [vecGather_rec, GatherScatter.vecGather_apply (N := 50000) (by decide), node_eq, COL_apply, DINV_apply ei hr]

/-- A gather of the product's rows by a column of node words reads the node's row. -/
theorem gatherLIN_apply (x : FVec Ideal S50000x128 .f32) (W : FVec Ideal S128x128 .f32) (w : IVec S800000 32) (e : Fin 800000)
    (d : Fin 128) :
    Host.gather gather_S50000x128_S800000x1_S800000x128_1_0_n_n_0_1_1128 (LIN x W) (COL w) (ix2 e d)
      = GCN.lin x W (GCN.node (w (ix1 e))) d := by
  rw [rowGather_rec, GatherScatter.rowGather_apply (N := 50000) (by decide), node_eq, COL_apply, LIN_apply]

/-- A vector laid along the rows of an edge-by-feature array. -/
theorem bcastE_apply (v : FVec Ideal S800000 .f32) (e : Fin 800000) (d : Fin 128) :
    broadcastInDim S800000x128 ![0, 1] bcast_S800000x1_S800000x128_0_1
      (broadcastInDim S800000x1 ![0] bcast_S800000_S800000x1_0 v) (ix2 e d) = v (ix1 e) := by
  refine (broadcastInDim_apply _ bcast_S800000x1_S800000x128_0_1 _ (ix2 e d) (ix2 e 0) (fun a => match a with
    | ⟨0, _⟩ => by show e.val = if (800000 : Nat) = 1 then 0 else e.val; rw [if_neg (by decide)]
    | ⟨1, _⟩ => by show (0 : Nat) = if (1 : Nat) = 1 then 0 else d.val; rw [if_pos rfl])).trans ?_
  exact broadcastInDim_apply _ bcast_S800000_S800000x1_0 v (ix2 e 0) (ix1 e) (fun a => match a with
    | ⟨0, _⟩ => by show e.val = if (800000 : Nat) = 1 then 0 else e.val; rw [if_neg (by decide)])

/-- A vector laid along the rows of a node-by-feature array. -/
theorem bcastN_apply (v : FVec Ideal S50000 .f32) (n : Fin 50000) (d : Fin 128) :
    broadcastInDim S50000x128 ![0, 1] bcast_S50000x1_S50000x128_0_1
      (broadcastInDim S50000x1 ![0] bcast_S50000_S50000x1_0 v) (ix2 n d) = v (ix1 n) := by
  refine (broadcastInDim_apply _ bcast_S50000x1_S50000x128_0_1 _ (ix2 n d) (ix2 n 0) (fun a => match a with
    | ⟨0, _⟩ => by show n.val = if (50000 : Nat) = 1 then 0 else n.val; rw [if_neg (by decide)]
    | ⟨1, _⟩ => by show (0 : Nat) = if (1 : Nat) = 1 then 0 else d.val; rw [if_pos rfl])).trans ?_
  exact broadcastInDim_apply _ bcast_S50000_S50000x1_0 v (ix2 n 0) (ix1 n) (fun a => match a with
    | ⟨0, _⟩ => by show n.val = if (50000 : Nat) = 1 then 0 else n.val; rw [if_neg (by decide)])

/-- The bias laid along the columns of a node-by-feature array. -/
theorem bcastB_apply (b : FVec Ideal S128 .f32) (n : Fin 50000) (d : Fin 128) :
    broadcastInDim S50000x128 ![0, 1] bcast_S1x128_S50000x128_0_1
      (broadcastInDim S1x128 ![1] bcast_S128_S1x128_1 b) (ix2 n d) = b (ix1 d) := by
  refine (broadcastInDim_apply _ bcast_S1x128_S50000x128_0_1 _ (ix2 n d) (ix2 0 d) (fun a => match a with
    | ⟨0, _⟩ => by show (0 : Nat) = if (1 : Nat) = 1 then 0 else n.val; rw [if_pos rfl]
    | ⟨1, _⟩ => by show d.val = if (128 : Nat) = 1 then 0 else d.val; rw [if_neg (by decide)])).trans ?_
  exact broadcastInDim_apply _ bcast_S128_S1x128_1 b (ix2 0 d) (ix1 d) (fun a => match a with
    | ⟨0, _⟩ => by show d.val = if (128 : Nat) = 1 then 0 else d.val; rw [if_neg (by decide)])

/-- The message of edge `e` at feature `d`. -/
theorem msg_apply (x : FVec Ideal S50000x128 .f32) (ei : IVec S2x800000 32) (W : FVec Ideal S128x128 .f32)
    (hr : GCN.InRange ei) (e : Fin 800000) (d : Fin 128) :
    mulf (Host.gather gather_S50000x128_S800000x1_S800000x128_1_0_n_n_0_1_1128 (LIN x W) (COL (SRC ei)))
        (broadcastInDim S800000x128 ![0, 1] bcast_S800000x1_S800000x128_0_1
          (broadcastInDim S800000x1 ![0] bcast_S800000_S800000x1_0
            (mulf (Host.gather gather_S50000_S800000x1_S800000_n_0_n_n_0_1_1 (DINV ei) (COL (SRC ei)))
              (Host.gather gather_S50000_S800000x1_S800000_n_0_n_n_0_1_1 (DINV ei) (COL (DST ei)))))) (ix2 e d)
      = GCN.lin x W (GCN.node (ei (ix2 0 e))) d
          * (GCN.dinv ei (GCN.node (ei (ix2 0 e))) * GCN.dinv ei (GCN.node (ei (ix2 1 e)))) := by
  rw [mulf_apply, bcastE_apply, mulf_apply, gatherLIN_apply, gatherDINV_apply ei hr, gatherDINV_apply ei hr, SRC_apply,
    DST_apply]

/-- ONE LAYER READ AT AN INDEX: where every edge word is a node number, the specification's layer. -/
theorem LAYER_apply (x : FVec Ideal S50000x128 .f32) (ei : IVec S2x800000 32) (W : FVec Ideal S128x128 .f32)
    (b : FVec Ideal S128 .f32) (hr : GCN.InRange ei) (n : Fin 50000) (d : Fin 128) :
    LAYER x ei W b (ix2 n d) = GCN.convR x W b ei n d := by
  have hs : WRAP (SRC ei) = SRC ei := WRAP_eq _ fun e => by rw [SRC_apply]; exact (hr 0 e).1
  have hd : WRAP (DST ei) = DST ei := WRAP_eq _ fun e => by rw [DST_apply]; exact (hr 1 e).1
  unfold LAYER
  rw [hs, hd, maximumf_apply, addf_apply, addf_apply, mulf_apply, splat_apply, bcastB_apply, bcastN_apply, mulf_apply,
    LIN_apply, DINV_apply ei hr, rowScatter_rec, GatherScatter.rowScatterAdd_apply, landSet_eq, splat_apply]
  rw [Finset.sum_congr rfl fun e _ => msg_apply x ei W hr e d]
  unfold GCN.convR
  rfl

/-- A vector of node words as an index column. -/
theorem colN_apply (bt : IVec S50000 32) (n : Fin 50000) :
    broadcastInDim S50000x1 ![0] bcast_S50000_S50000x1_0 bt (ix2 n 0) = bt (ix1 n) :=
  broadcastInDim_apply _ bcast_S50000_S50000x1_0 bt (ix2 n 0) (ix1 n) (fun a => match a with
    | ⟨0, _⟩ => by show n.val = if (50000 : Nat) = 1 then 0 else n.val; rw [if_neg (by decide)])

/-- The reference's features after its second layer, as a function of the arguments. -/
def H2 (x : FVec Ideal S50000x128 .f32) (ei : IVec S2x800000 32) (W1 : FVec Ideal S128x128 .f32) (b1 : FVec Ideal S128 .f32)
    (W2 : FVec Ideal S128x128 .f32) (b2 : FVec Ideal S128 .f32) : FVec Ideal S50000x128 .f32 :=
  LAYER (LAYER x ei W1 b1) ei W2 b2

theorem res_eq (m : (ℓ : Loc nD τ sig) → Buf (Elt Ideal) ℓ) (c : Dev nD) :
    Cert.ReferenceIdeal.Value.res_main_v119 (F := Ideal) m c
      = TAIL (POOLS (H2 (m ((c.tc : Thread nD τ).loc main_arg0)) (m ((c.tc : Thread nD τ).loc main_arg1))
                (m ((c.tc : Thread nD τ).loc main_arg3)) (m ((c.tc : Thread nD τ).loc main_arg4))
                (m ((c.tc : Thread nD τ).loc main_arg5)) (m ((c.tc : Thread nD τ).loc main_arg6)))
              (m ((c.tc : Thread nD τ).loc main_arg2)))
          (m ((c.tc : Thread nD τ).loc main_arg2)) (m ((c.tc : Thread nD τ).loc main_arg7)) (m ((c.tc : Thread nD τ).loc main_arg8)) := by
  rfl

theorem POOLS_apply (h : FVec Ideal S50000x128 .f32) (bt : IVec S50000 32) (g : Fin 512) (d : Fin 128) :
    POOLS h bt (ix2 g d) = GCN.poolR h (fun n => bt (ix1 n)) g d := by
  unfold POOLS
  rw [poolScatter_rec, GatherScatter.rowScatterAdd_apply, splat_apply]
  unfold GCN.poolR
  refine congrArg (GCN.zero + ·) ?_
  exact Finset.sum_congr (Finset.filter_congr fun j _ => by rw [colN_apply]) (fun _ _ => rfl)

theorem H2_apply (x : FVec Ideal S50000x128 .f32) (ei : IVec S2x800000 32) (W1 : FVec Ideal S128x128 .f32) (b1 : FVec Ideal S128 .f32)
    (W2 : FVec Ideal S128x128 .f32) (b2 : FVec Ideal S128 .f32) (hr : GCN.InRange ei) (n : Fin 50000) (d : Fin 128) :
    H2 x ei W1 b1 W2 b2 (ix2 n d) = GCN.convR (GCN.arr2 (GCN.convR x W1 b1 ei)) W2 b2 ei n d := by
  have h1 : LAYER x ei W1 b1 = GCN.arr2 (GCN.convR x W1 b1 ei) := by
    funext i
    obtain ⟨n, d, rfl⟩ : ∃ n d, i = ix2 n d := ⟨i 0, i 1, eq_ix2 i⟩
    rw [LAYER_apply x ei W1 b1 hr, GCN.arr2_ix2]
  unfold H2
  rw [h1, LAYER_apply _ ei W2 b2 hr]

end Cert.ReferenceIdeal.RV

end
-- ==== Proof.Bridge.lean ====
/-
  The two programs meet.  The kernel's result buffer holds the last stretch of its pooled sums, the reference's
  the same last stretch of its own; the two pooled-sum arrays agree index by index: block-by-block pooling is
  one-pass pooling, and each layer as the kernel arranges it is the layer as the reference arranges it, wherever
  every edge word is a node number.
-/
import proofs.«407980_j16999480557858_3_alg».proof.Proof.KChain
import proofs.«407980_j16999480557858_3_alg».proof.Proof.KLayer
import proofs.«407980_j16999480557858_3_alg».proof.Proof.ConvLaw
import proofs.«407980_j16999480557858_3_alg».proof.Proof.PoolLaw
import proofs.«407980_j16999480557858_3_alg».proof.Proof.RefValue

noncomputable section

namespace Cert.Bridge

open Idealize.ShloMosaic Idealize.ShloMosaic.TcCoe Idealize.SL.Sem Idealize.ShloMosaic.ValueIdx
open Cert.KernelIdeal Cert.KernelIdeal.Gen

/-- The two arrangements of a layer as arrays. -/
theorem conv_arr_eq (x : GCN.SNH.Idx → EReal) (W : GCN.SHH.Idx → EReal) (b : GCN.SH.Idx → EReal) (ei : IVec GCN.SE2 32)
    (hr : GCN.InRange ei) : GCN.arr2 (GCN.convK x W b ei) = GCN.arr2 (GCN.convR x W b ei) :=
  congrArg GCN.arr2 (funext fun n => funext fun d => GCN.conv_eq x W b ei hr n d)

/-- The shared last stretch is one function, whichever program's names spell it. -/
theorem tail_eq (p : FVec Ideal S512x128 .f32) (bt : IVec S50000 32) (wl : FVec Ideal S128x1 .f32) (bl : FVec Ideal S1 .f32) :
    Cert.ReferenceIdeal.RV.TAIL p bt wl bl = Cert.KernelIdeal.KV.TAIL p bt wl bl := rfl

variable (m : (ℓ : Loc nD τ sig) → Buf (Elt Ideal) ℓ) (c : Dev nD)

/-- The kernel's pooled sums, index by index, in the reference's arrangement. -/
theorem PK_apply (hr : GCN.InRange (m ((c : Thread nD τ).loc main_arg1))) (g : Fin 512) (d : Fin 128) :
    KV.PK m c (ix2 g d)
      = GCN.poolR (GCN.arr2 (GCN.convR (GCN.arr2 (GCN.convR (m ((c : Thread nD τ).loc main_arg0)) (m ((c : Thread nD τ).loc main_arg3))
            (m ((c : Thread nD τ).loc main_arg4)) (m ((c : Thread nD τ).loc main_arg1))))
          (m ((c : Thread nD τ).loc main_arg5)) (m ((c : Thread nD τ).loc main_arg6)) (m ((c : Thread nD τ).loc main_arg1))))
        (fun n => (m ((c : Thread nD τ).loc main_arg2)) (ix1 n)) g d := by
  have h1 : KV.H1 m c = GCN.arr2 (GCN.convR (m ((c : Thread nD τ).loc main_arg0)) (m ((c : Thread nD τ).loc main_arg3))
      (m ((c : Thread nD τ).loc main_arg4)) (m ((c : Thread nD τ).loc main_arg1))) :=
    (KV.layerK_eq _ _ _ _ hr).trans (conv_arr_eq _ _ _ _ hr)
  have h2 : GCN.finish (KV.AGG (KV.HS2 m c) (KV.EI m c)) (KV.HS2 m c) (KV.D2 (KV.EI m c)) (KV.BROW (m ((c : Thread nD τ).loc main_arg6)))
      = GCN.arr2 (GCN.convR (KV.H1 m c) (m ((c : Thread nD τ).loc main_arg5)) (m ((c : Thread nD τ).loc main_arg6)) (m ((c : Thread nD τ).loc main_arg1))) :=
    (KV.layerK_eq _ _ _ _ hr).trans (conv_arr_eq _ _ _ _ hr)
  have h3 : (fun n : Fin 50000 => KV.BCOL (m ((c : Thread nD τ).loc main_arg2)) (ix2 n 0)) = fun n => (m ((c : Thread nD τ).loc main_arg2)) (ix1 n) :=
    funext fun n => KV.BCOL_apply _ n
  show GCN.poolK (GCN.finish (KV.AGG (KV.HS2 m c) (KV.EI m c)) (KV.HS2 m c) (KV.D2 (KV.EI m c)) (KV.BROW (m ((c : Thread nD τ).loc main_arg6))))
      (fun n => KV.BCOL (m ((c : Thread nD τ).loc main_arg2)) (ix2 n 0)) g d = _
  rw [h2, h3, GCN.pool_eq, h1]

end Cert.Bridge

end
-- ==== Proof.PreDecode.lean ====
/- The precondition's last two conjuncts, decoded: every word of the edge array is a node number. -/
import proofs.«407980_j16999480557858_3_alg».proof.Pre_finite_inputs
import proofs.«407980_j16999480557858_3_alg».proof.Proof.Gen.Pre_finite_inputs
import proofs.«407980_j16999480557858_3_alg».proof.Proof.Spec
import proofs.«407980_j16999480557858_3_alg».proof.Proof.LibReduceAnd
import Idealize.ShloMosaic.Lib.ReduceAll
import Idealize.ShloMosaic.Lib.StableHlo.Predicate
import Idealize.ShloMosaic.Lib.ValueIdx

noncomputable section

open scoped BigOperators

namespace Cert.Pre_finite_inputs.Decode

open Cert.Pre_finite_inputs Cert.Pre_finite_inputs.Gen Idealize.ShloMosaic Idealize.ShloMosaic.ValueIdx

/-- A rank-0 array has one index. -/
private instance subsingleton_S_Idx : Subsingleton S_.Idx := ⟨fun a b => funext fun d => d.elim0⟩

/-- The last part of the precondition alone: if it is one then both `all`s over the edge array are one, so every
    word is at least 0 and below 50000, read signed. -/
private theorem inRange_of_part2 (ei : IVec S2x800000 32) (v33 : IVec S_ 1) (j : S_.Idx)
    (h : fn_part2 (F := Ideal) ei v33 j = 1#1) : GCN.InRange ei := by
  unfold fn_part2 at h
  dsimp only at h
  obtain ⟨h37, h40⟩ := IntOp.andi_eq_one.1 h
  obtain ⟨-, h36⟩ := IntOp.andi_eq_one.1 h37
  intro r e
  have hge := Host.reduce_andi_all _ _ _ _ j h36 (ix2 r e)
  have hlt := Host.reduce_andi_all _ _ _ _ j h40 (ix2 r e)
  have hge' := IntOp.cmpi_sge.1 hge
  have hlt' := IntOp.cmpi_slt.1 hlt
  rw [StableHlo.Predicate.bcast_scalar _ Facts.h_S_] at hge' hlt'
  have e0 : (constantI S_ 32 0#32 (Shape.Idx.first Facts.h_S_)).toInt = 0 := by decide
  have e1 : (constantI S_ 32 50000#32 (Shape.Idx.first Facts.h_S_)).toInt = 50000 := by decide
  rw [e0] at hge'
  rw [e1] at hlt'
  exact ⟨hge', hlt'⟩

theorem inRange_of_pre (x : FVec Ideal S50000x128 .f32) (ei : IVec S2x800000 32) (bt : IVec S50000 32)
    (W1 : FVec Ideal S128x128 .f32) (b1 : FVec Ideal S128 .f32) (W2 : FVec Ideal S128x128 .f32) (b2 : FVec Ideal S128 .f32)
    (wl : FVec Ideal S128x1 .f32) (bl : FVec Ideal S1 .f32)
    (h : Cert.Pre_finite_inputs.fn (F := Ideal) x ei bt W1 b1 W2 b2 wl bl = fun _ => 1#1) : GCN.InRange ei :=
  inRange_of_part2 ei _ ix0 (congrFun h ix0)

end Cert.Pre_finite_inputs.Decode

end
-- ==== Proof.lean ====
/-
  The certificate: a two-layer graph convolution (degree-normalised message passing over 800000 edges of a
  50000-node graph), mean-pooled over 512 graphs, with a linear head.  The kernel pulls the destination's
  normalising factor out of each neighbourhood sum and pools by a 0/1 membership product block by block; the
  reference multiplies the two factors edge by edge and pools in one pass.  On the extended reals the two agree
  wherever every word of the edge array is a node number (the precondition's two conjuncts on the edge array):
  the factor pulled out is a non-negative real, which distributes over any sum of extended reals, so no
  finiteness of the features is used.  The three frames are the generated runs; nothing was rewritten by the
  ideal pass, so `preserves` is trivial.
-/
import proofs.«407980_j16999480557858_3_alg».proof.Defs
import proofs.«407980_j16999480557858_3_alg».proof.Proof.Gen.Kernel
import proofs.«407980_j16999480557858_3_alg».proof.Proof.Gen.Kernel.Skeleton
import proofs.«407980_j16999480557858_3_alg».proof.Proof.Gen.Kernel.Launch
import proofs.«407980_j16999480557858_3_alg».proof.Proof.Gen.Kernel.Points
import proofs.«407980_j16999480557858_3_alg».proof.Proof.Gen.Kernel.Frame
import proofs.«407980_j16999480557858_3_alg».proof.Proof.Gen.KernelIdeal
import proofs.«407980_j16999480557858_3_alg».proof.Proof.Gen.KernelIdeal.Skeleton
import proofs.«407980_j16999480557858_3_alg».proof.Proof.Gen.KernelIdeal.Launch
import proofs.«407980_j16999480557858_3_alg».proof.Proof.Gen.KernelIdeal.Points
import proofs.«407980_j16999480557858_3_alg».proof.Proof.Gen.KernelIdeal.Frame
import proofs.«407980_j16999480557858_3_alg».proof.Proof.Gen.ReferenceIdeal
import proofs.«407980_j16999480557858_3_alg».proof.Proof.Gen.Pre_finite_inputs
import proofs.«407980_j16999480557858_3_alg».proof.Proof.Gen.ReferenceIdeal.Run
import proofs.«407980_j16999480557858_3_alg».proof.Proof.Gen.ReferenceIdeal.Read
import proofs.«407980_j16999480557858_3_alg».proof.Proof.KRun
import proofs.«407980_j16999480557858_3_alg».proof.Proof.Bridge
import proofs.«407980_j16999480557858_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the last stretch applied to one and the same array of pooled sums. -/
theorem algebraic : Cert.algebraic_KernelIdeal_ReferenceIdeal := by
  intro m ρ m' ρ' hpre hagree
  have hr : ∀ c : Dev Cert.KernelIdeal.nD,
      GCN.InRange (m ((c.tc : Thread Cert.KernelIdeal.nD Cert.KernelIdeal.τ).loc Cert.KernelIdeal.main_arg1)) :=
    fun c => Cert.Pre_finite_inputs.Decode.inRange_of_pre _ _ _ _ _ _ _ _ _ (hpre c)
  refine ⟨fun c => Cert.KernelIdeal.KV.TAIL (Cert.KernelIdeal.KV.PK m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KV.w11_v42 m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RV.res_eq]
    obtain ⟨e0, e1, e2, e3, e4, e5, e6, e7, e8⟩ := hagree c
    rw [e0, e1, e2, e3, e4, e5, e6, e7, e8, Cert.Bridge.tail_eq]
    refine congrArg (fun p => Cert.KernelIdeal.KV.TAIL p _ _ _) ?_
    funext i
    obtain ⟨g, d, rfl⟩ : ∃ (g : Fin 512) (d : Fin 128), i = ix2 g d := ⟨i 0, i 1, eq_ix2 i⟩
    rw [Cert.ReferenceIdeal.RV.POOLS_apply, Cert.Bridge.PK_apply m c (hr c)]
    have hH2 : Cert.ReferenceIdeal.RV.H2
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        = GCN.arr2 (GCN.convR (GCN.arr2 (GCN.convR
            (m ((c.tc : Thread Cert.KernelIdeal.nD Cert.KernelIdeal.τ).loc Cert.KernelIdeal.main_arg0))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg1))))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg1))) := by
      funext j
      obtain ⟨n, k, rfl⟩ : ∃ (n : Fin 50000) (k : Fin 128), j = ix2 n k := ⟨j 0, j 1, eq_ix2 j⟩
      exact Cert.ReferenceIdeal.RV.H2_apply _ _ _ _ _ _ (hr c) n k
    rw [hH2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
